-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32768x1024 : Shape := ⟨3, ![2, 32768, 1024]⟩
abbrev S2x1024 : Shape := ⟨2, ![2, 1024]⟩
abbrev S1024 : Shape := ⟨1, ![1024]⟩
abbrev S_ : Shape := ⟨0, ![]⟩

class Facts : Prop where
  bcast_S_S2x32768x1024 : S_.BroadcastsInDim S2x32768x1024 (![] : Fin 0 → Fin S2x32768x1024.rank)
  reducesTo_S2x32768x1024_S_d0_1_2 : S2x32768x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : IVec S1024 32) (main_v13 : IVec S_ 1) (main_v15 : IVec S1024 1) (main_c_5 : IVec S_ 32) : IVec S_ 1 :=
  let main_v16 : IVec S1024 32 := broadcastInDim S1024 ![] bcast_S_S1024 main_c_5
  let main_v17 : IVec S1024 1 := cmpi .slt main_arg4 main_v16
  let main_v18 : IVec S1024 1 := andi main_v15 main_v17
  let main_c_6 : IVec S_ 1 := constantI S_ 1 1#1
  let main_v19 : IVec S_ 1 := (fun x v => Host.reduce IntOp.andi x v reducesTo_S1024_S_d0 h_S_) main_v18 main_c_6
  let main_v20 : IVec S_ 1 := andi main_v13 main_v19
  main_v20

def fn {F : FTy → Type} [FloatOps F] (main_arg0 : FVec F S2x32768x1024 .f32) (main_arg1 : FVec F S2x1024 .f32) (main_arg2 : FVec F S2x1024 .f32) (main_arg3 : IVec S1024 32) (main_arg4 : IVec S1024 32) (main_arg5 : IVec S1024 32) : IVec S_ 1 :=
  let main_v0 : FVec F S2x32768x1024 .f32 := Host.absf main_arg0
  let main_cst : FVec F S_ .f32 := constant S_ .f32 0x7F800000#32
  let main_v1 : FVec F S2x32768x1024 .f32 := broadcastInDim S2x32768x1024 ![] bcast_S_S2x32768x1024 main_cst
  let main_v2 : IVec S2x32768x1024 1 := cmpf .olt main_v0 main_v1
  let main_c : IVec S_ 1 := constantI S_ 1 1#1
  let main_v3 : IVec S_ 1 := (fun x v => Host.reduce IntOp.andi x v reducesTo_S2x32768x1024_S_d0_1_2 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg4 main_v14
  let main_c_5 : IVec S_ 32 := constantI S_ 32 1024#32
  fn_part1 (F := F) main_arg4 main_v13 main_v15 main_c_5
-- ==== Kernel.lean ====
abbrev S2x32768x1024 : Shape := ⟨3, ![2, 32768, 1024]⟩
abbrev S2x1024 : Shape := ⟨2, ![2, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S4x1024 : Shape := ⟨2, ![4, 1024]⟩
abbrev S2x512x1024 : Shape := ⟨3, ![2, 512, 1024]⟩
abbrev S512x1024 : Shape := ⟨2, ![512, 1024]⟩
abbrev S1x512x1024 : Shape := ⟨3, ![1, 512, 1024]⟩

abbrev nBuf : Space → Nat
  | .hbm => 86
  | .vmem => 7
  | .smem => 0
  | _ => 0

abbrev bufTy : (tb : Table) → Fin (tcTables nBuf tb) → BufTy
  | .hbm, ⟨0, _⟩ => ⟨S2x32768x1024, .f32⟩
  | .hbm, ⟨1, _⟩ => ⟨S2x1024, .f32⟩
  | .hbm, ⟨2, _⟩ => ⟨S2x1024, .f32⟩
  | .hbm, ⟨3, _⟩ => ⟨S1024, .i32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1x1024, .i32⟩
  | .hbm, ⟨36, _⟩ => ⟨S1024x1024, .i32⟩
  | .hbm, ⟨37, _⟩ => ⟨S1024x1024, .i32⟩
  | .hbm, ⟨38, _⟩ => ⟨S1024x1024, .i1⟩
  | .hbm, ⟨39, _⟩ => ⟨S1024x1024, .bf16⟩
  | .hbm, ⟨40, _⟩ => ⟨S1x1024, .i32⟩
  | .hbm, ⟨41, _⟩ => ⟨S1024x1024, .i32⟩
  | .hbm, ⟨42, _⟩ => ⟨S1024x1024, .i32⟩
  | .hbm, ⟨43, _⟩ => ⟨S1024x1024, .i1⟩
  | .hbm, ⟨44, _⟩ => ⟨S1024x1024, .bf16⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S2x1024, .f32⟩
  | .hbm, ⟨54, _⟩ => ⟨S_, .i32⟩
  | .hbm, ⟨55, _⟩ => ⟨S1024, .i32⟩
  | .hbm, ⟨56, _⟩ => ⟨S1024, .i1⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S1024, .i32⟩
  | .hbm, ⟨61, _⟩ => ⟨S1024x1, .i32⟩
  | .hbm, ⟨62, _⟩ => ⟨S1024, .i32⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024x1, .i32⟩
  | .hbm, ⟨71, _⟩ => ⟨S2x1024, .f32⟩
  | .hbm, ⟨72, _⟩ => ⟨S1x1024, .f32⟩
  | .hbm, ⟨73, _⟩ => ⟨S1024, .f32⟩
  | .hbm, ⟨74, _⟩ => ⟨S1x1024, .f32⟩
  | .hbm, ⟨75, _⟩ => ⟨S1024, .f32⟩
  | .hbm, ⟨76, _⟩ => ⟨S1x1024, .f32⟩
  | .hbm, ⟨77, _⟩ => ⟨S1024, .f32⟩
  | .hbm, ⟨78, _⟩ => ⟨S1x1024, .f32⟩
  | .hbm, ⟨79, _⟩ => ⟨S1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S4x1024, .f32⟩
  | .hbm, ⟨85, _⟩ => ⟨S2x32768x1024, .f32⟩
  | .local _ .vmem, ⟨0, _⟩ => ⟨S2x512x1024, .f32⟩
  | .local _ .vmem, ⟨1, _⟩ => ⟨S2x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S4x1024, .f32⟩
  | .local _ .vmem, ⟨5, _⟩ => ⟨S2x512x1024, .f32⟩
  | .local _ .vmem, ⟨6, _⟩ => ⟨S2x512x1024, .f32⟩
  | _, _ => ⟨S2x32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_c_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_9 : Ref sig .tc := ⟨.hbm, 63, rfl⟩
abbrev main_v47 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  slices_S2x1024_S1x1024_0_0 : S2x1024.Slices ![0, 0] S1x1024
  shapeCasts_S1x1024_S1024 : S1x1024.ShapeCasts S1024
  slices_S2x1024_S1x1024_1_0 : S2x1024.Slices ![1, 0] S1x1024
  concatenates_S1x1024_S1x1024_S1x1024_S1x1024_S4x1024_d0 : Shape.Concatenates [S1x1024, S1x1024, S1x1024, S1x1024] S4x1024 0
  inb_S2x512x1024_S2x512x1024_0_0_0 : ∀ a, (![0, 0, 0] : Fin 3 → Nat) a + S2x512x1024.size a ≤ S2x512x1024.size a
  h_S2x512x1024 : 0 < S2x512x1024.numel
  bitsLt_bf16_f32 : FTy.bits .bf16 < FTy.bits .f32
  shapeCasts_S2x512x1024_S1024x1024 : S2x512x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S512x1024 : S1024x1024.Slices ![0, 0] S512x1024
  slices_S1024x1024_o512_0_S512x1024 : S1024x1024.Slices ![512, 0] S512x1024
  inb_S4x1024_S1x1024_0_0 : ∀ a, (![0, 0] : Fin 2 → Nat) a + S1x1024.size a ≤ S4x1024.size a
  h_S1x1024 : 0 < S1x1024.numel
  shapeCasts_S1x1024_S1x1024 : S1x1024.ShapeCasts S1x1024
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  broadcasts_S1x1024_S512x1024 : S1x1024.Broadcasts S512x1024
  inb_S2x512x1024_S1x512x1024_0_0_0 : ∀ a, (![0, 0, 0] : Fin 3 → Nat) a + S1x512x1024.size a ≤ S2x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S2x512x1024_S1x512x1024_1_0_0 : ∀ a, (![1, 0, 0] : Fin 3 → Nat) a + S1x512x1024.size a ≤ S2x512x1024.size a
  gather_S1024_S1024x1_S1024_n_0_n_n_0_1_1_wf : GatherDims.WF S1024 S1024x1 S1024 [] [0] [] [0] [] 1 ![1]
  gather_S2x1024_S1024x1_S2x1024_0_1_n_n_1_1_21_wf : GatherDims.WF S2x1024 S1024x1 S2x1024 [0] [1] [] [1] [] 1 ![2, 1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1024.size a ≤ S2x32768x1024.size a
  hwx0_0 : ∀ i : grid0.Coords, EltTy.bits .f32 = 32 ∨ (Rect.block (s := S2x32768x1024) S2x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x1024.size a ≤ S2x32768x1024.size a
  hwx0_4 : ∀ i : grid0.Coords, EltTy.bits .f32 = 32 ∨ (Rect.block (s := S2x32768x1024) S2x512x1024.size (cc0_transform_4 i) (hinb0_4 i)).WholeWords (EltTy.packing .f32)

variable [Facts₀]

def gather_S1024_S1024x1_S1024_n_0_n_n_0_1_1 : GatherDims S1024 S1024x1 S1024 where
  offsetDims := []
  collapsedSliceDims := [0]
  operandBatchingDims := []
  startIndicesBatchingDims := []
  startIndexMap := [0]
  indexVectorDim := 1
  sliceSizes := ![1]
  wf := gather_S1024_S1024x1_S1024_n_0_n_n_0_1_1_wf
def gather_S2x1024_S1024x1_S2x1024_0_1_n_n_1_1_21 : GatherDims S2x1024 S1024x1 S2x1024 where
  offsetDims := [0]
  collapsedSliceDims := [1]
  operandBatchingDims := []
  startIndicesBatchingDims := []
  startIndexMap := [1]
  indexVectorDim := 1
  sliceSizes := ![2, 1]
  wf := gather_S2x1024_S1024x1_S2x1024_0_1_n_n_1_1_21_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S2x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v66) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v67) S2x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x32768x1024 : Shape := ⟨3, ![2, 32768, 1024]⟩
abbrev S2x1024 : Shape := ⟨2, ![2, 1024]⟩
abbrev S1024 : Shape := ⟨1, ![1024]⟩
abbrev S_ : Shape := ⟨0, ![]⟩
abbrev S1024x1 : Shape := ⟨2, ![1024, 1]⟩
abbrev S1x32768x1024 : Shape := ⟨3, ![1, 32768, 1024]⟩
abbrev S32768x1024 : Shape := ⟨2, ![32768, 1024]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S2x32768x1024, .f32⟩
  | .hbm, ⟨1, _⟩ => ⟨S2x1024, .f32⟩
  | .hbm, ⟨2, _⟩ => ⟨S2x1024, .f32⟩
  | .hbm, ⟨3, _⟩ => ⟨S1024, .i32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S2x32768x1024, .f32⟩
  | .hbm, ⟨15, _⟩ => ⟨S1x32768x1024, .f32⟩
  | .hbm, ⟨16, _⟩ => ⟨S32768x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1x32768x1024, .f32⟩
  | .hbm, ⟨23, _⟩ => ⟨S32768x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S1x32768x1024, .f32⟩
  | .hbm, ⟨31, _⟩ => ⟨S32768x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x32768x1024, .f32⟩
  | .hbm, ⟨38, _⟩ => ⟨S32768x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S1x32768x1024, .f32⟩
  | .hbm, ⟨46, _⟩ => ⟨S1x32768x1024, .f32⟩
  | .hbm, ⟨47, _⟩ => ⟨S2x32768x1024, .f32⟩
  | .hbm, ⟨48, _⟩ => ⟨S1x32768x1024, .f32⟩
  | .hbm, ⟨49, _⟩ => ⟨S32768x1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S1x32768x1024, .f32⟩
  | .hbm, ⟨56, _⟩ => ⟨S32768x1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S1x32768x1024, .f32⟩
  | .hbm, ⟨64, _⟩ => ⟨S32768x1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S32768x1024, .f32⟩
  | .hbm, ⟨69, _⟩ => ⟨S32768x1024, .f32⟩
  | .hbm, ⟨70, _⟩ => ⟨S1x32768x1024, .f32⟩
  | .hbm, ⟨71, _⟩ => ⟨S32768x1024, .f32⟩
  | .hbm, ⟨72, _⟩ => ⟨S1x1024, .f32⟩
  | .hbm, ⟨73, _⟩ => ⟨S1024, .f32⟩
  | .hbm, ⟨74, _⟩ => ⟨S1x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S1x32768x1024, .f32⟩
  | .hbm, ⟨79, _⟩ => ⟨S1x32768x1024, .f32⟩
  | .hbm, ⟨80, _⟩ => ⟨S2x32768x1024, .f32⟩
  | .hbm, ⟨81, _⟩ => ⟨S_, .i32⟩
  | .hbm, ⟨82, _⟩ => ⟨S1024, .i32⟩
  | .hbm, ⟨83, _⟩ => ⟨S1024, .i1⟩
  | .hbm, ⟨84, _⟩ => ⟨S_, .i32⟩
  | .hbm, ⟨85, _⟩ => ⟨S1024, .i32⟩
  | .hbm, ⟨86, _⟩ => ⟨S1024, .i32⟩
  | .hbm, ⟨87, _⟩ => ⟨S1024, .i32⟩
  | .hbm, ⟨88, _⟩ => ⟨S1024x1, .i32⟩
  | .hbm, ⟨89, _⟩ => ⟨S2x32768x1024, .f32⟩
  | .hbm, ⟨90, _⟩ => ⟨S2x32768x1024, .f32⟩
  | .hbm, ⟨91, _⟩ => ⟨S_, .i32⟩
  | .hbm, ⟨92, _⟩ => ⟨S1024, .i32⟩
  | .hbm, ⟨93, _⟩ => ⟨S1024, .i1⟩
  | .hbm, ⟨94, _⟩ => ⟨S_, .i32⟩
  | .hbm, ⟨95, _⟩ => ⟨S1024, .i32⟩
  | .hbm, ⟨96, _⟩ => ⟨S1024, .i32⟩
  | .hbm, ⟨97, _⟩ => ⟨S1024, .i32⟩
  | .hbm, ⟨98, _⟩ => ⟨S1024x1, .i32⟩
  | .hbm, ⟨99, _⟩ => ⟨S2x32768x1024, .f32⟩
  | _, _ => ⟨S2x32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_c_1 : Ref sig .tc := ⟨.hbm, 81, rfl⟩
abbrev main_v73 : Ref sig .tc := ⟨.hbm, 82, rfl⟩
abbrev main_v74 : Ref sig .tc := ⟨.hbm, 83, rfl⟩
abbrev main_c_2 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_c_3 : Ref sig .tc := ⟨.hbm, 91, rfl⟩
abbrev main_v81 : Ref sig .tc := ⟨.hbm, 92, rfl⟩
abbrev main_v82 : Ref sig .tc := ⟨.hbm, 93, rfl⟩
abbrev main_c_4 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  slices_S2x32768x1024_S1x32768x1024_0_0_0 : S2x32768x1024.Slices ![0, 0, 0] S1x32768x1024
  shapeCasts_S1x32768x1024_S32768x1024 : S1x32768x1024.ShapeCasts S32768x1024
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S2x32768x1024_S1x32768x1024_1_0_0 : S2x32768x1024.Slices ![1, 0, 0] S1x32768x1024
  slices_S2x1024_S1x1024_1_0 : S2x1024.Slices ![1, 0] S1x1024
  bcast_S32768x1024_S1x32768x1024_1_2 : S32768x1024.BroadcastsInDim S1x32768x1024 (![1, 2] : Fin 2 → Fin S1x32768x1024.rank)
  concatenates_S1x32768x1024_S1x32768x1024_S2x32768x1024_d0 : Shape.Concatenates [S1x32768x1024, S1x32768x1024] S2x32768x1024 0
  gather_S2x32768x1024_S1024x1_S2x32768x1024_01_2_n_n_2_1_2327681_wf : GatherDims.WF S2x32768x1024 S1024x1 S2x32768x1024 [0, 1] [2] [] [2] [] 1 ![2, 32768, 1]

variable [Facts₀]

def gather_S2x32768x1024_S1024x1_S2x32768x1024_01_2_n_n_2_1_2327681 : GatherDims S2x32768x1024 S1024x1 S2x32768x1024 where
  offsetDims := [0, 1]
  collapsedSliceDims := [2]
  operandBatchingDims := []
  startIndicesBatchingDims := []
  startIndexMap := [2]
  indexVectorDim := 1
  sliceSizes := ![2, 32768, 1]
  wf := gather_S2x32768x1024_S1024x1_S2x32768x1024_01_2_n_n_2_1_2327681_wf

class Facts : Prop extends Facts₀ where

variable [Facts]
-- ==== Proof.FrameBits.lean ====
/-
  The program's frame, and what its launch leaves in the result array, for the program `Kernel`.

  @main is a stretch of host operations followed by one launch over a grid of 64 points. The launch stages five
  windows: a [2, 512, 1024] block of the signal (rows 512 t … 512 t + 511 of both planes), the two whole selection
  matrices, the whole coefficient table, and the matching [2, 512, 1024] block of the result. The body reads the first
  four, and writes the result block by two stores, plane 0 then plane 1, which together tile it: so after the body the
  result's staging buffer holds the two stored values side by side, whatever it held before, and every other buffer is
  as it was. From that, the library's launch theorem gives the run of the whole program: it terminates, faults nowhere,
  leaves every array no window stages as the launch found it, and the result array at the blocks the points wrote.
-/
import proofs.«428286_j56160992363152_3_alg».proof.Proof.Gen.Kernel.Launch
import proofs.«428286_j56160992363152_3_alg».proof.Proof.Gen.Kernel.Skeleton
import proofs.«428286_j56160992363152_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core c's buffers when the launch is reached: the host operations applied to the launch contents. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as the program was started with. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1: the launch finds it as the program was started with. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2: the launch finds it as the program was started with. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 3: the launch finds it as the program was started with. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 4: the launch finds it as the program was started with. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 5: the launch finds it as the program was started with. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run that ends with every staged array at what the points wrote back and every other array as the launch found
    it: the six argument arrays end as the program was started with. The signal is staged as an input (never written
    back); the other five are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

/-- The whole signal block, the whole of a selection matrix, row q of the coefficient table, plane q of the result block. -/
abbrev rX : Rect S2x512x1024 := Rect.unit (s := S2x512x1024) ![0, 0, 0] S2x512x1024.size inb_S2x512x1024_S2x512x1024_0_0_0
abbrev rW : Rect S1024x1024 := Rect.unit (s := S1024x1024) ![0, 0] S1024x1024.size inb_S1024x1024_S1024x1024_0_0
abbrev rC0 : Rect S4x1024 := Rect.unit (s := S4x1024) ![0, 0] S1x1024.size inb_S4x1024_S1x1024_0_0
abbrev rC1 : Rect S4x1024 := Rect.unit (s := S4x1024) ![1, 0] S1x1024.size inb_S4x1024_S1x1024_1_0
abbrev rC2 : Rect S4x1024 := Rect.unit (s := S4x1024) ![2, 0] S1x1024.size inb_S4x1024_S1x1024_2_0
abbrev rC3 : Rect S4x1024 := Rect.unit (s := S4x1024) ![3, 0] S1x1024.size inb_S4x1024_S1x1024_3_0
abbrev rO0 : Rect S2x512x1024 := Rect.unit (s := S2x512x1024) ![0, 0, 0] S1x512x1024.size inb_S2x512x1024_S1x512x1024_0_0_0
abbrev rO1 : Rect S2x512x1024 := Rect.unit (s := S2x512x1024) ![1, 0, 0] S1x512x1024.size inb_S2x512x1024_S1x512x1024_1_0_0

/-! ## What the body leaves in the result window's buffer -/

/-- The value stored into plane 0, from the four input blocks. -/
def payRe (x0 : Vec F S2x512x1024 .f32) (x1 x2 : Vec F S1024x1024 .bf16) (x3 : Vec F S4x1024 .f32) : FVec F S1x512x1024 .f32 :=
  k0_pay1 (k0_pay14 (View.ld x0 rX) (View.ld x1 rW) (View.ld x2 rW) (View.ld x3 rC0) (View.ld x3 rC1) (View.ld x3 rC2) (View.ld x3 rC3))

/-- The value stored into plane 1, from the four input blocks. -/
def payIm (x0 : Vec F S2x512x1024 .f32) (x1 x2 : Vec F S1024x1024 .bf16) (x3 : Vec F S4x1024 .f32) : FVec F S1x512x1024 .f32 :=
  k0_pay2 (k0_pay15 (View.ld x0 rX) (View.ld x1 rW) (View.ld x2 rW) (View.ld x3 rC0) (View.ld x3 rC1) (View.ld x3 rC3))
    (k0_pay16 (View.ld x0 rX) (View.ld x2 rW) (View.ld x3 rC2))

/-- The result window's staging buffer after the body: its two stores as pieces, the later one first. -/
def out0_4 (x0 : Vec F S2x512x1024 .f32) (x1 x2 : Vec F S1024x1024 .bf16) (x3 : Vec F S4x1024 .f32) : Vec F S2x512x1024 .f32 :=
  View.canon [⟨rO1, payIm x0 x1 x2 x3⟩, ⟨rO0, payRe x0 x1 x2 x3⟩]

/-- The two planes tile the block, so the stores cover it. -/
theorem cover0_4 (p1 p0 : Vec F S1x512x1024 .f32) (y : S2x512x1024.Idx) :
    ∃ pc ∈ ([⟨rO1, p1⟩, ⟨rO0, p0⟩] : List (View.Piece (Elt F) S2x512x1024 .f32)), y ∈ pc.1.set :=
  View.cover_of_tiled [⟨rO1, p1⟩, ⟨rO0, p0⟩] S1x512x1024.size (by rfl) y

/-! ## The body's triple -/

set_option maxHeartbeats 4000000 in
/-- The body on whole staging buffers, the four inputs' at contents x0 … x3 and the result's at anything, runs to the
    continuation holding the inputs' as they were and the result's at `out0_4` of them. -/
theorem sound_kernel (c : Dev nD) (E : Set ℕ) (i : grid0.Coords)
    (arg1 : Memref sig .tc .vmem S2x512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S4x1024 .f32) (harg4 : arg4.IsWhole)
    (arg5 : Memref sig .tc .vmem S2x512x1024 .f32) (harg5 : arg5.IsWhole)
    (x0 : Vec F S2x512x1024 .f32) (x1 x2 : Vec F S1024x1024 .bf16) (x3 : Vec F S4x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gather_mac_kernel i arg1 harg1 arg2 harg2 arg3 harg3 arg4 harg4 arg5 harg5) K := by
  simp only [cc0__gather_mac_kernel_eq_skeleton]; unfold cc0__gather_mac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _)

/-! ## The pipeline's proof data -/

/-- The arrays as the launch finds them; after the body at point t each input's buffer at its block and the result's at
    `out0_4` of the input blocks; the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the points
    wrote back and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.FrameIdeal.lean ====
/-
  The program's frame, and what its launch leaves in the result array, for the program `KernelIdeal`.

  @main is a stretch of host operations followed by one launch over a grid of 64 points. The launch stages five
  windows: a [2, 512, 1024] block of the signal (rows 512 t … 512 t + 511 of both planes), the two whole selection
  matrices, the whole coefficient table, and the matching [2, 512, 1024] block of the result. The body reads the first
  four, and writes the result block by two stores, plane 0 then plane 1, which together tile it: so after the body the
  result's staging buffer holds the two stored values side by side, whatever it held before, and every other buffer is
  as it was. From that, the library's launch theorem gives the run of the whole program: it terminates, faults nowhere,
  leaves every array no window stages as the launch found it, and the result array at the blocks the points wrote.
-/
import proofs.«428286_j56160992363152_3_alg».proof.Proof.Gen.KernelIdeal.Launch
import proofs.«428286_j56160992363152_3_alg».proof.Proof.Gen.KernelIdeal.Skeleton
import proofs.«428286_j56160992363152_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core c's buffers when the launch is reached: the host operations applied to the launch contents. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as the program was started with. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1: the launch finds it as the program was started with. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2: the launch finds it as the program was started with. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 3: the launch finds it as the program was started with. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 4: the launch finds it as the program was started with. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 5: the launch finds it as the program was started with. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run that ends with every staged array at what the points wrote back and every other array as the launch found
    it: the six argument arrays end as the program was started with. The signal is staged as an input (never written
    back); the other five are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

/-- The whole signal block, the whole of a selection matrix, row q of the coefficient table, plane q of the result block. -/
abbrev rX : Rect S2x512x1024 := Rect.unit (s := S2x512x1024) ![0, 0, 0] S2x512x1024.size inb_S2x512x1024_S2x512x1024_0_0_0
abbrev rW : Rect S1024x1024 := Rect.unit (s := S1024x1024) ![0, 0] S1024x1024.size inb_S1024x1024_S1024x1024_0_0
abbrev rC0 : Rect S4x1024 := Rect.unit (s := S4x1024) ![0, 0] S1x1024.size inb_S4x1024_S1x1024_0_0
abbrev rC1 : Rect S4x1024 := Rect.unit (s := S4x1024) ![1, 0] S1x1024.size inb_S4x1024_S1x1024_1_0
abbrev rC2 : Rect S4x1024 := Rect.unit (s := S4x1024) ![2, 0] S1x1024.size inb_S4x1024_S1x1024_2_0
abbrev rC3 : Rect S4x1024 := Rect.unit (s := S4x1024) ![3, 0] S1x1024.size inb_S4x1024_S1x1024_3_0
abbrev rO0 : Rect S2x512x1024 := Rect.unit (s := S2x512x1024) ![0, 0, 0] S1x512x1024.size inb_S2x512x1024_S1x512x1024_0_0_0
abbrev rO1 : Rect S2x512x1024 := Rect.unit (s := S2x512x1024) ![1, 0, 0] S1x512x1024.size inb_S2x512x1024_S1x512x1024_1_0_0

/-! ## What the body leaves in the result window's buffer -/

/-- The value stored into plane 0, from the four input blocks. -/
def payRe (x0 : Vec F S2x512x1024 .f32) (x1 x2 : Vec F S1024x1024 .bf16) (x3 : Vec F S4x1024 .f32) : FVec F S1x512x1024 .f32 :=
  k0_pay1 (k0_pay14 (View.ld x0 rX) (View.ld x1 rW) (View.ld x2 rW) (View.ld x3 rC0) (View.ld x3 rC1) (View.ld x3 rC2) (View.ld x3 rC3))

/-- The value stored into plane 1, from the four input blocks. -/
def payIm (x0 : Vec F S2x512x1024 .f32) (x1 x2 : Vec F S1024x1024 .bf16) (x3 : Vec F S4x1024 .f32) : FVec F S1x512x1024 .f32 :=
  k0_pay2 (k0_pay15 (View.ld x0 rX) (View.ld x1 rW) (View.ld x2 rW) (View.ld x3 rC0) (View.ld x3 rC1) (View.ld x3 rC3))
    (k0_pay16 (View.ld x0 rX) (View.ld x2 rW) (View.ld x3 rC2))

/-- The result window's staging buffer after the body: its two stores as pieces, the later one first. -/
def out0_4 (x0 : Vec F S2x512x1024 .f32) (x1 x2 : Vec F S1024x1024 .bf16) (x3 : Vec F S4x1024 .f32) : Vec F S2x512x1024 .f32 :=
  View.canon [⟨rO1, payIm x0 x1 x2 x3⟩, ⟨rO0, payRe x0 x1 x2 x3⟩]

/-- The two planes tile the block, so the stores cover it. -/
theorem cover0_4 (p1 p0 : Vec F S1x512x1024 .f32) (y : S2x512x1024.Idx) :
    ∃ pc ∈ ([⟨rO1, p1⟩, ⟨rO0, p0⟩] : List (View.Piece (Elt F) S2x512x1024 .f32)), y ∈ pc.1.set :=
  View.cover_of_tiled [⟨rO1, p1⟩, ⟨rO0, p0⟩] S1x512x1024.size (by rfl) y

/-! ## The body's triple -/

set_option maxHeartbeats 4000000 in
/-- The body on whole staging buffers, the four inputs' at contents x0 … x3 and the result's at anything, runs to the
    continuation holding the inputs' as they were and the result's at `out0_4` of them. -/
theorem sound_kernel (c : Dev nD) (E : Set ℕ) (i : grid0.Coords)
    (arg1 : Memref sig .tc .vmem S2x512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S4x1024 .f32) (harg4 : arg4.IsWhole)
    (arg5 : Memref sig .tc .vmem S2x512x1024 .f32) (harg5 : arg5.IsWhole)
    (x0 : Vec F S2x512x1024 .f32) (x1 x2 : Vec F S1024x1024 .bf16) (x3 : Vec F S4x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gather_mac_kernel i arg1 harg1 arg2 harg2 arg3 harg3 arg4 harg4 arg5 harg5) K := by
  simp only [cc0__gather_mac_kernel_eq_skeleton]; unfold cc0__gather_mac_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _)

/-! ## The pipeline's proof data -/

/-- The arrays as the launch finds them; after the body at point t each input's buffer at its block and the result's at
    `out0_4` of the input blocks; the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every staged array at what the points
    wrote back and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.Payload.lean ====
/-
  The kernel body's arithmetic read at one entry of each stored piece: four row-by-column products against the two
  selection matrices, combined with the four coefficient rows as a complex multiply-add.
-/
import proofs.«428286_j56160992363152_3_alg».proof.Proof.Gen.KernelIdeal.Skeleton
import proofs.«428286_j56160992363152_3_alg».proof.Proof.LibOneAxisContraction
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen
open scoped BigOperators

/-- Row b of plane c of the block against column j of a selection matrix. -/
def rowDot (v0 : Vec Ideal S2x512x1024 .f32) (w : Vec Ideal S1024x1024 .bf16) (c : Fin 2) (b : Fin 512) (j : Fin 1024) : EReal :=
  ∑ k : Fin 1024, (v0 (ix3 c b k) : EReal) * (w (ix2 k j) : EReal)

/-! ## The matrix product at an entry

The product contracts axis 1 of the left operand with axis 0 of the right one. At a result entry (r, j) and contraction
position k the left operand is read at (r, k) and the right one at (k, j): one fact per operand axis. -/

/-- The left operand's row is the result's row. -/
theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The left operand's column is the contraction position. -/
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- The right operand's row is the contraction position. -/
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- The right operand's column is the result's column. -/
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product into a zero accumulator at entry (r, j): row r of the left operand against column j of the right one. -/
theorem matmul_entry (lhs rhs : FVec Ideal S1024x1024 .bf16) (r j : Fin 1024) :
    matmul dot_S1024x1024_S1024x1024_S1024x1024_1_0_0_1_n_n none lhs rhs (constant (F := Ideal) S1024x1024 .f32 0x00000000#32) (ix2 r j)
      = ∑ k : Fin 1024, lhs (ix2 r k) * rhs (ix2 k j) := by
  refine Cert.Dots.matmul_zero_apply_of dot_S1024x1024_S1024x1024_S1024x1024_1_0_0_1_n_n 1024 rfl rfl none lhs rhs (ix2 r j)
    (fun k => ix2 r k) (fun k => ix2 k j) (fun c => ?_) (fun c => ?_)
  · have hk := contrEquiv1_symm_val dot_S1024x1024_S1024x1024_S1024x1024_1_0_0_1_n_n 1024 rfl rfl c
    exact funext fun a => Fin.ext (by
      match a with
      | ⟨0, _⟩ => exact lhs_axis0 _ _
      | ⟨1, _⟩ => exact (lhs_axis1 _ _).trans hk)
  · have hk := contrEquiv1_symm_val dot_S1024x1024_S1024x1024_S1024x1024_1_0_0_1_n_n 1024 rfl rfl c
    exact funext fun a => Fin.ext (by
      match a with
      | ⟨0, _⟩ => exact (rhs_axis0 _ _).trans hk
      | ⟨1, _⟩ => exact rhs_axis1 _ _)

/-! ## The block as a 1024-row matrix, and the two products -/

/-- The block recast as a matrix of 1024 rows: row 512 c + b is row b of plane c (the narrowing of the format is the
    identity on ideal values). -/
theorem pay3_apply (v0 : Vec Ideal S2x512x1024 .f32) (c : Fin 2) (b : Fin 512) (k r : Fin 1024)
    (hr : r.val = 512 * c.val + b.val) :
    k0_pay3 (F := Ideal) v0 (ix2 r k) = v0 (ix3 c b k) := by
  unfold k0_pay3
  refine (shapeCast_apply _ _ (ix2 r k) (ix3 c b k) ?_).trans rfl
  rw [Shape.rowMajor_val_three, Shape.rowMajor_val_two]
  show (c.val * 512 + b.val) * 1024 + k.val = r.val * 1024 + k.val
  omega

/-- The first product at row 512 c + b, column j. -/
theorem pay4_apply (v0 : Vec Ideal S2x512x1024 .f32) (w : Vec Ideal S1024x1024 .bf16) (c : Fin 2) (b : Fin 512)
    (j r : Fin 1024) (hr : r.val = 512 * c.val + b.val) :
    k0_pay4 (F := Ideal) v0 w (ix2 r j) = rowDot v0 w c b j := by
  unfold k0_pay4 rowDot
  show matmul dot_S1024x1024_S1024x1024_S1024x1024_1_0_0_1_n_n none (k0_pay3 (F := Ideal) v0)
      (shapeCast S1024x1024 w shapeCasts_S1024x1024_S1024x1024)
      (constant (F := Ideal) S1024x1024 .f32 0x00000000#32) (ix2 r j) = _
  rw [shapeCast_self, matmul_entry]
  exact Finset.sum_congr rfl fun k _ => by rw [pay3_apply v0 c b k r hr]

/-- The second product at row 512 c + b, column j: the same operation on the other matrix. -/
theorem pay7_apply (v0 : Vec Ideal S2x512x1024 .f32) (w : Vec Ideal S1024x1024 .bf16) (c : Fin 2) (b : Fin 512)
    (j r : Fin 1024) (hr : r.val = 512 * c.val + b.val) :
    k0_pay7 (F := Ideal) v0 w (ix2 r j) = rowDot v0 w c b j :=
  pay4_apply v0 w c b j r hr

/-! ## The two halves of each product: rows [0, 512) hold plane 0, rows [512, 1024) plane 1 -/

theorem pay5_apply (v0 : Vec Ideal S2x512x1024 .f32) (w : Vec Ideal S1024x1024 .bf16) (b : Fin 512) (j : Fin 1024) :
    k0_pay5 (F := Ideal) v0 w (ix2 b j) = rowDot v0 w 0 b j := by
  unfold k0_pay5
  refine (slice2_axis0_apply 0 (k0_pay4 (F := Ideal) v0 w) slices_S1024x1024_o0_0_S512x1024 b j
    ⟨b.val, by have := b.isLt; omega⟩ (Nat.zero_add _).symm).trans ?_
  exact pay4_apply v0 w 0 b j _ (by show b.val = 512 * 0 + b.val; omega)

theorem pay6_apply (v0 : Vec Ideal S2x512x1024 .f32) (w : Vec Ideal S1024x1024 .bf16) (b : Fin 512) (j : Fin 1024) :
    k0_pay6 (F := Ideal) v0 w (ix2 b j) = rowDot v0 w 1 b j := by
  unfold k0_pay6
  refine (slice2_axis0_apply 512 (k0_pay4 (F := Ideal) v0 w) slices_S1024x1024_o512_0_S512x1024 b j
    ⟨512 + b.val, by have := b.isLt; omega⟩ rfl).trans ?_
  exact pay4_apply v0 w 1 b j _ (by show 512 + b.val = 512 * 1 + b.val; omega)

theorem pay8_apply (v0 : Vec Ideal S2x512x1024 .f32) (w : Vec Ideal S1024x1024 .bf16) (b : Fin 512) (j : Fin 1024) :
    k0_pay8 (F := Ideal) v0 w (ix2 b j) = rowDot v0 w 0 b j := by
  unfold k0_pay8
  refine (slice2_axis0_apply 0 (k0_pay7 (F := Ideal) v0 w) slices_S1024x1024_o0_0_S512x1024 b j
    ⟨b.val, by have := b.isLt; omega⟩ (Nat.zero_add _).symm).trans ?_
  exact pay7_apply v0 w 0 b j _ (by show b.val = 512 * 0 + b.val; omega)

theorem pay9_apply (v0 : Vec Ideal S2x512x1024 .f32) (w : Vec Ideal S1024x1024 .bf16) (b : Fin 512) (j : Fin 1024) :
    k0_pay9 (F := Ideal) v0 w (ix2 b j) = rowDot v0 w 1 b j := by
  unfold k0_pay9
  refine (slice2_axis0_apply 512 (k0_pay7 (F := Ideal) v0 w) slices_S1024x1024_o512_0_S512x1024 b j
    ⟨512 + b.val, by have := b.isLt; omega⟩ rfl).trans ?_
  exact pay7_apply v0 w 1 b j _ (by show 512 + b.val = 512 * 1 + b.val; omega)

/-! ## A coefficient row spread over the 512 rows -/

/-- A one-row array spread over 512 rows reads, at (b, j), the row's entry j. -/
theorem coefRow_apply {α : Type} (w : S1x1024.Idx → α) (b : Fin 512) (j : Fin 1024) :
    broadcastTo S512x1024 (shapeCast S1x1024 w shapeCasts_S1x1024_S1x1024) broadcasts_S1x1024_S512x1024 (ix2 b j)
      = w (ix2 (0 : Fin 1) j) := by
  rw [shapeCast_self]
  exact broadcastTo_1b_ab_apply w broadcasts_S1x1024_S512x1024 b j

/-! ## The complex multiply-add -/

/-- The real part before it is stored. -/
theorem pay14_apply (v0 : Vec Ideal S2x512x1024 .f32) (v3 v5 : Vec Ideal S1024x1024 .bf16)
    (v13 v15 v17 v19 : Vec Ideal S1x1024 .f32) (b : Fin 512) (j : Fin 1024) :
    (k0_pay14 (F := Ideal) v0 v3 v5 v13 v15 v17 v19 (ix2 b j) : EReal)
      = ((rowDot v0 v3 0 b j * v13 (ix2 (0 : Fin 1) j) - rowDot v0 v3 1 b j * v15 (ix2 (0 : Fin 1) j))
          + rowDot v0 v5 0 b j * v17 (ix2 (0 : Fin 1) j)) - rowDot v0 v5 1 b j * v19 (ix2 (0 : Fin 1) j) := by
  unfold k0_pay14 k0_pay10 k0_pay11 k0_pay12 k0_pay13
  simp only [subf_apply, addf_apply, mulf_apply, coefRow_apply, pay5_apply, pay6_apply, pay8_apply, pay9_apply]

/-- The first summand pair of the imaginary part. -/
theorem pay15_apply (v0 : Vec Ideal S2x512x1024 .f32) (v3 v5 : Vec Ideal S1024x1024 .bf16)
    (v13 v15 v19 : Vec Ideal S1x1024 .f32) (b : Fin 512) (j : Fin 1024) :
    (k0_pay15 (F := Ideal) v0 v3 v5 v13 v15 v19 (ix2 b j) : EReal)
      = (rowDot v0 v3 0 b j * v15 (ix2 (0 : Fin 1) j) + rowDot v0 v3 1 b j * v13 (ix2 (0 : Fin 1) j))
          + rowDot v0 v5 0 b j * v19 (ix2 (0 : Fin 1) j) := by
  unfold k0_pay15 k0_pay10 k0_pay11 k0_pay13
  simp only [addf_apply, mulf_apply, coefRow_apply, pay5_apply, pay6_apply, pay8_apply]

/-- The last summand of the imaginary part. -/
theorem pay16_apply (v0 : Vec Ideal S2x512x1024 .f32) (v5 : Vec Ideal S1024x1024 .bf16)
    (v17 : Vec Ideal S1x1024 .f32) (b : Fin 512) (j : Fin 1024) :
    (k0_pay16 (F := Ideal) v0 v5 v17 (ix2 b j) : EReal) = rowDot v0 v5 1 b j * v17 (ix2 (0 : Fin 1) j) := by
  unfold k0_pay16 k0_pay12
  simp only [mulf_apply, coefRow_apply, pay9_apply]

/-- The first stored piece (the real plane) at row b, column j. -/
theorem piece_re (v0 : Vec Ideal S2x512x1024 .f32) (v3 v5 : Vec Ideal S1024x1024 .bf16)
    (v13 v15 v17 v19 : Vec Ideal S1x1024 .f32) (b : Fin 512) (j : Fin 1024) :
    (k0_pay1 (F := Ideal) (k0_pay14 v0 v3 v5 v13 v15 v17 v19) (ix3 (0 : Fin 1) b j) : EReal)
      = ((rowDot v0 v3 0 b j * v13 (ix2 (0 : Fin 1) j) - rowDot v0 v3 1 b j * v15 (ix2 (0 : Fin 1) j))
          + rowDot v0 v5 0 b j * v17 (ix2 (0 : Fin 1) j)) - rowDot v0 v5 1 b j * v19 (ix2 (0 : Fin 1) j) := by
  unfold k0_pay1
  refine (shapeCast_ab_1ab_apply (k0_pay14 (F := Ideal) v0 v3 v5 v13 v15 v17 v19)
    shapeCasts_S512x1024_S1x512x1024 (0 : Fin 1) b j).trans ?_
  exact pay14_apply v0 v3 v5 v13 v15 v17 v19 b j

/-- The second stored piece (the imaginary plane) at row b, column j. -/
theorem piece_im (v0 : Vec Ideal S2x512x1024 .f32) (v3 v5 : Vec Ideal S1024x1024 .bf16)
    (v13 v15 v17 v19 : Vec Ideal S1x1024 .f32) (b : Fin 512) (j : Fin 1024) :
    (k0_pay2 (F := Ideal) (k0_pay15 v0 v3 v5 v13 v15 v19) (k0_pay16 v0 v5 v17) (ix3 (0 : Fin 1) b j) : EReal)
      = ((rowDot v0 v3 0 b j * v15 (ix2 (0 : Fin 1) j) + rowDot v0 v3 1 b j * v13 (ix2 (0 : Fin 1) j))
          + rowDot v0 v5 0 b j * v19 (ix2 (0 : Fin 1) j)) + rowDot v0 v5 1 b j * v17 (ix2 (0 : Fin 1) j) := by
  unfold k0_pay2
  refine (shapeCast_ab_1ab_apply
    (addf (k0_pay15 (F := Ideal) v0 v3 v5 v13 v15 v19) (k0_pay16 (F := Ideal) v0 v5 v17))
    shapeCasts_S512x1024_S1x512x1024 (0 : Fin 1) b j).trans ?_
  rw [addf_apply, pay15_apply, pay16_apply]

end Cert.KernelIdeal.Payload

end
-- ==== Proof.OutBlock.lean ====
/-
  The result block the body leaves, entry by entry.

  The body stores two values, one per plane, and the two planes tile the block: so the block is whatever function its
  two planes restrict, and each plane at row b, column j is the body's arithmetic there — four row-by-column products
  combined with the coefficient rows. Stated over any four input blocks.
-/
import proofs.«428286_j56160992363152_3_alg».proof.Proof.FrameIdeal
import proofs.«428286_j56160992363152_3_alg».proof.Proof.Payload
import Idealize.ShloMosaic.Lib.Pipeline.Value
import Idealize.ShloMosaic.Lib.ValueIdx

set_option maxRecDepth 16384

noncomputable section

namespace Cert.KernelIdeal.OutBlock

open Idealize.ShloMosaic Idealize.ShloMosaic.ValueIdx
open Cert.KernelIdeal Cert.KernelIdeal.Gen Cert.KernelIdeal.Payload

theorem hz3 : (![0, 0, 0] : Fin 3 → Nat) = fun _ => 0 := funext fun a => by fin_cases a <;> rfl
theorem hz2 : (![0, 0] : Fin 2 → Nat) = fun _ => 0 := funext fun a => by fin_cases a <;> rfl

/-- Plane 0 of the result block sits at plane 0, plane 1 at plane 1; rows and columns as they are. -/
theorem rO0_emb (q : Fin 1) (b : Fin 512) (j : Fin 1024) : rO0.emb (ix3 q b j) = (ix3 (0 : Fin 2) b j : S2x512x1024.Idx) := by
  funext a; apply Fin.ext
  match a with
  | ⟨0, _⟩ => show 0 + 1 * q.val = 0; omega
  | ⟨1, _⟩ => show 0 + 1 * b.val = b.val; omega
  | ⟨2, _⟩ => show 0 + 1 * j.val = j.val; omega
theorem rO1_emb (q : Fin 1) (b : Fin 512) (j : Fin 1024) : rO1.emb (ix3 q b j) = (ix3 (1 : Fin 2) b j : S2x512x1024.Idx) := by
  funext a; apply Fin.ext
  match a with
  | ⟨0, _⟩ => show 1 + 1 * q.val = 1; omega
  | ⟨1, _⟩ => show 0 + 1 * b.val = b.val; omega
  | ⟨2, _⟩ => show 0 + 1 * j.val = j.val; omega

/-- Row q of the coefficient table, loaded as a [1, 1024] value, at column j. -/
theorem ld_rC0 (x3 : Vec Ideal S4x1024 .f32) (j : Fin 1024) : View.ld x3 rC0 (ix2 (0 : Fin 1) j) = x3 (ix2 (0 : Fin 4) j) := by
  show x3 (rC0.emb (ix2 (0 : Fin 1) j)) = _
  congr 1; funext a; apply Fin.ext
  match a with
  | ⟨0, _⟩ => rfl
  | ⟨1, _⟩ => show 0 + 1 * j.val = j.val; omega
theorem ld_rC1 (x3 : Vec Ideal S4x1024 .f32) (j : Fin 1024) : View.ld x3 rC1 (ix2 (0 : Fin 1) j) = x3 (ix2 (1 : Fin 4) j) := by
  show x3 (rC1.emb (ix2 (0 : Fin 1) j)) = _
  congr 1; funext a; apply Fin.ext
  match a with
  | ⟨0, _⟩ => rfl
  | ⟨1, _⟩ => show 0 + 1 * j.val = j.val; omega
theorem ld_rC2 (x3 : Vec Ideal S4x1024 .f32) (j : Fin 1024) : View.ld x3 rC2 (ix2 (0 : Fin 1) j) = x3 (ix2 (2 : Fin 4) j) := by
  show x3 (rC2.emb (ix2 (0 : Fin 1) j)) = _
  congr 1; funext a; apply Fin.ext
  match a with
  | ⟨0, _⟩ => rfl
  | ⟨1, _⟩ => show 0 + 1 * j.val = j.val; omega
theorem ld_rC3 (x3 : Vec Ideal S4x1024 .f32) (j : Fin 1024) : View.ld x3 rC3 (ix2 (0 : Fin 1) j) = x3 (ix2 (3 : Fin 4) j) := by
  show x3 (rC3.emb (ix2 (0 : Fin 1) j)) = _
  congr 1; funext a; apply Fin.ext
  match a with
  | ⟨0, _⟩ => rfl
  | ⟨1, _⟩ => show 0 + 1 * j.val = j.val; omega

/-- The value stored into plane 0 at row b, column j. -/
theorem payRe_apply (x0 : Vec Ideal S2x512x1024 .f32) (x1 x2 : Vec Ideal S1024x1024 .bf16) (x3 : Vec Ideal S4x1024 .f32)
    (b : Fin 512) (j : Fin 1024) :
    (payRe (F := Ideal) x0 x1 x2 x3 (ix3 (0 : Fin 1) b j) : EReal)
      = ((rowDot x0 x1 0 b j * x3 (ix2 (0 : Fin 4) j) - rowDot x0 x1 1 b j * x3 (ix2 (1 : Fin 4) j))
          + rowDot x0 x2 0 b j * x3 (ix2 (2 : Fin 4) j)) - rowDot x0 x2 1 b j * x3 (ix2 (3 : Fin 4) j) := by
  unfold payRe
  rw [piece_re, ld_rC0, ld_rC1, ld_rC2, ld_rC3, View.ld_unit_zero (S := S2x512x1024) hz3, View.ld_unit_zero (S := S1024x1024) hz2,
    View.ld_unit_zero (S := S1024x1024) hz2]

/-- The value stored into plane 1 at row b, column j. -/
theorem payIm_apply (x0 : Vec Ideal S2x512x1024 .f32) (x1 x2 : Vec Ideal S1024x1024 .bf16) (x3 : Vec Ideal S4x1024 .f32)
    (b : Fin 512) (j : Fin 1024) :
    (payIm (F := Ideal) x0 x1 x2 x3 (ix3 (0 : Fin 1) b j) : EReal)
      = ((rowDot x0 x1 0 b j * x3 (ix2 (1 : Fin 4) j) + rowDot x0 x1 1 b j * x3 (ix2 (0 : Fin 4) j))
          + rowDot x0 x2 0 b j * x3 (ix2 (3 : Fin 4) j)) + rowDot x0 x2 1 b j * x3 (ix2 (2 : Fin 4) j) := by
  unfold payIm
  rw [piece_im, ld_rC0, ld_rC1, ld_rC2, ld_rC3, View.ld_unit_zero (S := S2x512x1024) hz3, View.ld_unit_zero (S := S1024x1024) hz2,
    View.ld_unit_zero (S := S1024x1024) hz2]

/-- The block the body leaves is any function its two planes agree with, entry by entry. -/
theorem out_eq (x0 : Vec Ideal S2x512x1024 .f32) (x1 x2 : Vec Ideal S1024x1024 .bf16) (x3 : Vec Ideal S4x1024 .f32)
    (Gb : S2x512x1024.Idx → EReal)
    (hre : ∀ (b : Fin 512) (j : Fin 1024),
      ((rowDot x0 x1 0 b j * x3 (ix2 (0 : Fin 4) j) - rowDot x0 x1 1 b j * x3 (ix2 (1 : Fin 4) j))
          + rowDot x0 x2 0 b j * x3 (ix2 (2 : Fin 4) j)) - rowDot x0 x2 1 b j * x3 (ix2 (3 : Fin 4) j) = Gb (ix3 (0 : Fin 2) b j))
    (him : ∀ (b : Fin 512) (j : Fin 1024),
      ((rowDot x0 x1 0 b j * x3 (ix2 (1 : Fin 4) j) + rowDot x0 x1 1 b j * x3 (ix2 (0 : Fin 4) j))
          + rowDot x0 x2 0 b j * x3 (ix2 (3 : Fin 4) j)) + rowDot x0 x2 1 b j * x3 (ix2 (2 : Fin 4) j) = Gb (ix3 (1 : Fin 2) b j)) :
    (out0_4 (F := Ideal) x0 x1 x2 x3 : S2x512x1024.Idx → EReal) = Gb := by
  funext y
  unfold out0_4
  refine View.canon_apply_of_pieces (Val := Elt Ideal) Gb _ ?_ y (cover0_4 _ _ y)
  intro p hp x
  simp only [List.mem_cons, List.mem_nil_iff, or_false] at hp
  rcases hp with rfl | rfl
  · obtain ⟨q, b, j, rfl⟩ : ∃ (q : Fin 1) (b : Fin 512) (j : Fin 1024), x = ix3 q b j := ⟨x 0, x 1, x 2, eq_ix3 x⟩
    obtain rfl : q = 0 := Subsingleton.elim _ _
    show payIm (F := Ideal) x0 x1 x2 x3 (ix3 (0 : Fin 1) b j) = Gb (rO1.emb (ix3 (0 : Fin 1) b j))
    rw [rO1_emb, payIm_apply]; exact him b j
  · obtain ⟨q, b, j, rfl⟩ : ∃ (q : Fin 1) (b : Fin 512) (j : Fin 1024), x = ix3 q b j := ⟨x 0, x 1, x 2, eq_ix3 x⟩
    obtain rfl : q = 0 := Subsingleton.elim _ _
    show payRe (F := Ideal) x0 x1 x2 x3 (ix3 (0 : Fin 1) b j) = Gb (rO0.emb (ix3 (0 : Fin 1) b j))
    rw [rO0_emb, payRe_apply]; exact hre b j

end Cert.KernelIdeal.OutBlock

end
-- ==== Proof.Spec.lean ====
/-
  The function both programs compute, written once over the argument arrays.

  The input x : [2, 32768, 1024] holds a complex signal, real part in plane 0 and imaginary part in plane 1; diag and
  off : [2, 1024] are complex vectors laid out the same way; pw, left and right : [1024] are integer tables used as
  positions into the last axis. A table entry is read as a position the way array indexing reads it: signed, a negative
  entry shifted up by 1024, the result clamped into 0 … 1023 (`pos`).

  With o[c, b, k] = x[c, b, pos left[k]] (the signal permuted by `left`), the result at [·, b, j] is the complex number
      o[·, b, r] · diag[·, r]  +  o[·, b, p] · off[·, p],      r = pos right[j],  p = pos pw[r],
  a complex product being (a₀ b₀ − a₁ b₁, a₀ b₁ + a₁ b₀).

  The second half of the file states what the kernel's host code prepares for the matrix unit — two 0/1 selection
  matrices and a four-row coefficient table — and the one law that joins the two sides: a row times a 0/1 column with a
  single 1 is the row's entry at that position.
-/
import Idealize.ShloMosaic.Lib.ValueIdx
import Idealize.ShloMosaic.PureOps.Ideal

noncomputable section

namespace Cert.Spec

open Idealize.ShloMosaic Idealize.ShloMosaic.ValueIdx
open scoped BigOperators

abbrev SX : Shape := ⟨3, ![2, 32768, 1024]⟩
abbrev SD : Shape := ⟨2, ![2, 1024]⟩
abbrev SI : Shape := ⟨1, ![1024]⟩
abbrev SW : Shape := ⟨2, ![1024, 1024]⟩
abbrev SC : Shape := ⟨2, ![4, 1024]⟩

/-- A negative table entry is shifted up by the axis length, as array indexing does before it gathers. -/
def wrap (v : BitVec 32) : BitVec 32 :=
  Scalar.select (IntOp.cmpi .slt v 0#32) (IntOp.addi v 1024#32) v

/-- The position a table entry denotes: read signed after the shift, clamped into the axis. -/
def pos (v : BitVec 32) : Fin 1024 := ⟨min (wrap v).toInt.toNat 1023, by omega⟩

/-- The signal permuted by `left`: plane c, row b, position k. -/
def perm (x : SX.Idx → EReal) (left : SI.Idx → BitVec 32) (c : Fin 2) (b : Fin 32768) (k : Fin 1024) : EReal :=
  x (ix3 c b (pos (left (ix1 k))))

/-- Real part of (permuted signal at k) · d[·, k]. -/
def mulRe (x : SX.Idx → EReal) (left : SI.Idx → BitVec 32) (d : SD.Idx → EReal) (b : Fin 32768) (k : Fin 1024) : EReal :=
  perm x left 0 b k * d (ix2 0 k) - perm x left 1 b k * d (ix2 1 k)

/-- Imaginary part of (permuted signal at k) · d[·, k]. -/
def mulIm (x : SX.Idx → EReal) (left : SI.Idx → BitVec 32) (d : SD.Idx → EReal) (b : Fin 32768) (k : Fin 1024) : EReal :=
  perm x left 0 b k * d (ix2 1 k) + perm x left 1 b k * d (ix2 0 k)

/-- The result at plane c, row b, column j. -/
def Gat (x : SX.Idx → EReal) (diag off : SD.Idx → EReal) (pw left right : SI.Idx → BitVec 32)
    (c : Fin 2) (b : Fin 32768) (j : Fin 1024) : EReal :=
  let r := pos (right (ix1 j))
  let p := pos (pw (ix1 r))
  if c.val = 0 then mulRe x left diag b r + mulRe x left off b p
  else mulIm x left diag b r + mulIm x left off b p

/-- The result array. -/
def G (x : SX.Idx → EReal) (diag off : SD.Idx → EReal) (pw left right : SI.Idx → BitVec 32) : SX.Idx → EReal :=
  fun i => Gat x diag off pw left right (i 0) (i 1) (i 2)

theorem G_ix3 (x : SX.Idx → EReal) (diag off : SD.Idx → EReal) (pw left right : SI.Idx → BitVec 32)
    (c : Fin 2) (b : Fin 32768) (j : Fin 1024) :
    G x diag off pw left right (ix3 c b j) = Gat x diag off pw left right c b j := rfl

/-! ## What the kernel's host code hands the matrix unit -/

/-- The table entry the first selection matrix compares against in column j: `left` at r. -/
def selA (left right : SI.Idx → BitVec 32) (j : Fin 1024) : BitVec 32 :=
  left (ix1 (pos (right (ix1 j))))

/-- The table entry the second selection matrix compares against in column j: `left` at p. -/
def selB (pw left right : SI.Idx → BitVec 32) (j : Fin 1024) : BitVec 32 :=
  left (ix1 (pos (pw (ix1 (pos (right (ix1 j)))))))

/-- A selection matrix: 1 where the row number, as a 32-bit word, IS the table entry of the column, else 0. -/
def oneHot (e : Fin 1024 → BitVec 32) : SW.Idx → EReal :=
  fun i => if BitVec.ofNat 32 (i 0).val = e (i 1) then 1 else 0

/-- The coefficient table: rows diag[0, r], diag[1, r], off[0, p], off[1, p] over the column j. -/
def coef (diag off : SD.Idx → EReal) (pw right : SI.Idx → BitVec 32) : SC.Idx → EReal :=
  fun i =>
    let r := pos (right (ix1 (i 1)))
    let p := pos (pw (ix1 r))
    if (i 0).val = 0 then diag (ix2 0 r) else if (i 0).val = 1 then diag (ix2 1 r)
    else if (i 0).val = 2 then off (ix2 0 p) else off (ix2 1 p)

/-- An in-range, non-negative table entry is its own position, as a word. -/
theorem ofNat_pos_of_range (v : BitVec 32) (h0 : 0 ≤ v.toInt) (h1 : v.toInt < 1024) :
    BitVec.ofNat 32 (pos v).val = v := by
  -- the sign test fails on a non-negative word, so the shift leaves it alone
  have hs : v.slt 0#32 = false := by
    rw [Bool.eq_false_iff]
    intro hs
    have hlt := BitVec.slt_iff_toInt_lt.1 hs
    have hz : (0#32 : BitVec 32).toInt = 0 := by decide
    omega
  have hc : IntOp.cmpi .slt v 0#32 = 0#1 := by
    show BitVec.ofBool (v.slt 0#32) = 0#1
    rw [hs]; rfl
  have hw : wrap v = v := by
    unfold wrap
    rw [hc]
    exact if_neg (by decide)
  -- a non-negative signed reading is the unsigned one
  have hlt := v.isLt
  have hn : v.toInt = (v.toNat : Int) := by
    have e := BitVec.toInt_eq_toNat_cond v
    split at e <;> omega
  show BitVec.ofNat 32 (min (wrap v).toInt.toNat 1023) = v
  rw [hw]
  apply BitVec.eq_of_toNat_eq
  rw [BitVec.toNat_ofNat]
  omega

/-- A row against a 0/1 column whose single 1 sits where the row number is the entry v (in range): the row at pos v. -/
theorem sum_oneHot (f : Fin 1024 → EReal) (v : BitVec 32) (h0 : 0 ≤ v.toInt) (h1 : v.toInt < 1024) :
    ∑ k : Fin 1024, f k * (if BitVec.ofNat 32 k.val = v then (1 : EReal) else 0) = f (pos v) := by
  have hp := ofNat_pos_of_range v h0 h1
  rw [Finset.sum_eq_single (pos v)]
  · rw [if_pos hp, mul_one]
  · -- any other row number, as a word, differs from v: words of numbers below 1024 are distinct
    intro k _ hk
    rw [if_neg, mul_zero]
    intro hkv
    apply hk
    apply Fin.ext
    have e : BitVec.ofNat 32 k.val = BitVec.ofNat 32 (pos v).val := hkv.trans hp.symm
    have e' := congrArg BitVec.toNat e
    simp only [BitVec.toNat_ofNat] at e'
    have := k.isLt
    have := (pos v).isLt
    omega
  · intro hne
    exact absurd (Finset.mem_univ _) hne

end Cert.Spec

end
-- ==== Proof.HostTables.lean ====
/-
  What the kernel's host code prepares before the launch, as functions of the argument arrays: the two selection
  matrices and the coefficient table.
-/
import proofs.«428286_j56160992363152_3_alg».proof.Proof.Gen.KernelIdeal.Launch
import proofs.«428286_j56160992363152_3_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostTables

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Core c's buffers when the launch is reached: the host operations applied to the launch contents. -/
abbrev Vh (c : Dev nD) (b : Ref sig .tc) : Buf (Elt Ideal) ((c : Thread nD τ).loc b) :=
  StableHlo.after (hostOps0 (F := Ideal)) (fun b => m (c, b)) b

/-! ## The operations of the host code, read at an index -/

section Reads
variable {α : Type}

/-- A vector laid as a column reads, in row j, its entry j. -/
theorem col_apply (v : S1024.Idx → α) (j : Fin 1024) :
    broadcastInDim S1024x1 ![0] bcast_S1024_S1024x1_0 v (ix2 j (0 : Fin 1)) = v (ix1 j) :=
  broadcastInDim_apply _ _ v _ _ (fun a => by obtain rfl : a = 0 := Subsingleton.elim _ _; rfl)

/-- A vector laid as a row reads, in column j, its entry j. -/
theorem row_apply (v : S1024.Idx → α) (j : Fin 1024) :
    broadcastInDim S1x1024 ![1] bcast_S1024_S1x1024_1 v (ix2 (0 : Fin 1) j) = v (ix1 j) :=
  broadcastInDim_apply _ _ v _ _ (fun a => by obtain rfl : a = 0 := Subsingleton.elim _ _; rfl)

/-- A column repeated along the columns reads, at (k, j), the column's row k. -/
theorem ofCol_apply (v : S1024x1.Idx → α) (k j : Fin 1024) :
    broadcastInDim S1024x1024 ![0, 1] bcast_S1024x1_S1024x1024_0_1 v (ix2 k j) = v (ix2 k (0 : Fin 1)) :=
  broadcastInDim_apply _ _ v _ _ (fun a => by match a with | ⟨0, _⟩ => rfl | ⟨1, _⟩ => rfl)

/-- A row repeated down the rows reads, at (k, j), the row's column j. -/
theorem ofRow_apply (v : S1x1024.Idx → α) (k j : Fin 1024) :
    broadcastInDim S1024x1024 ![0, 1] bcast_S1x1024_S1024x1024_0_1 v (ix2 k j) = v (ix2 (0 : Fin 1) j) :=
  broadcastInDim_apply _ _ v _ _ (fun a => by match a with | ⟨0, _⟩ => rfl | ⟨1, _⟩ => rfl)

/-- A start index read signed and clamped into 0 … 1023. -/
def clampPos (w : BitVec 32) : Fin 1024 := ⟨min w.toInt.toNat 1023, by omega⟩

/-- The position a table entry denotes is its shifted word, clamped. -/
theorem pos_eq (v : BitVec 32) : Cert.Spec.pos v = clampPos (Cert.Spec.wrap v) := rfl

/-- The gather of a flat table at a column of start indices reads, at j, the table at start index j read signed and
    clamped: the one operand axis is collapsed and start-indexed, there is no offset and no batching axis. -/
theorem take1_apply (x : S1024.Idx → α) (idx : IVec S1024x1 32) (j : Fin 1024) :
    Host.gather gather_S1024_S1024x1_S1024_n_0_n_n_0_1_1 x idx (ix1 j) = x (ix1 (clampPos (idx (ix2 j (0 : Fin 1))))) := by
  unfold Host.gather
  congr 1
  funext a
  obtain rfl : a = (0 : Fin 1) := Subsingleton.elim _ _
  refine Fin.ext ?_
  show gather_S1024_S1024x1_S1024_n_0_n_n_0_1_1.start (ix1 j) idx (0 : Fin 1) + gather_S1024_S1024x1_S1024_n_0_n_n_0_1_1.batchCoord (ix1 j) (0 : Fin 1)
      + gather_S1024_S1024x1_S1024_n_0_n_n_0_1_1.offCoord (ix1 j) (0 : Fin 1) = _
  rw [GatherDims.batchCoord_eq_zero _ _ _ List.not_mem_nil,
    GatherDims.offCoord_eq_zero _ _ _ (fun h => ((GatherDims.mem_sKept _ _).mp h).1 (List.mem_singleton.mpr rfl)),
    Nat.add_zero]
  unfold GatherDims.start
  rw [dif_pos (show (0 : Fin 1) ∈ gather_S1024_S1024x1_S1024_n_0_n_n_0_1_1.startIndexMap from List.mem_singleton.mpr rfl)]
  have hsi : gather_S1024_S1024x1_S1024_n_0_n_n_0_1_1.siIdx (ix1 j) ⟨List.idxOf (0 : Fin 1) gather_S1024_S1024x1_S1024_n_0_n_n_0_1_1.startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

/-- The gather of a two-row table along its second axis reads, at (q, j), row q at start index j read signed and
    clamped: axis 0 is the offset axis (the whole extent 2), axis 1 is collapsed and start-indexed. -/
theorem take2_apply (x : S2x1024.Idx → α) (idx : IVec S1024x1 32) (q : Fin 2) (j : Fin 1024) :
    Host.gather gather_S2x1024_S1024x1_S2x1024_0_1_n_n_1_1_21 x idx (ix2 q j) = x (ix2 q (clampPos (idx (ix2 j (0 : Fin 1))))) := by
  unfold Host.gather
  congr 1
  funext a
  refine Fin.ext ?_
  show gather_S2x1024_S1024x1_S2x1024_0_1_n_n_1_1_21.start (ix2 q j) idx a + gather_S2x1024_S1024x1_S2x1024_0_1_n_n_1_1_21.batchCoord (ix2 q j) a + gather_S2x1024_S1024x1_S2x1024_0_1_n_n_1_1_21.offCoord (ix2 q j) a = _
  rw [GatherDims.batchCoord_eq_zero _ _ _ List.not_mem_nil, Nat.add_zero]
  match a with
  | ⟨0, _⟩ =>
    have hs : gather_S2x1024_S1024x1_S2x1024_0_1_n_n_1_1_21.start (ix2 q j) idx (0 : Fin 2) = 0 := by
      unfold GatherDims.start
      exact dif_neg (by decide)
    have ho : gather_S2x1024_S1024x1_S2x1024_0_1_n_n_1_1_21.offCoord (ix2 q j) (0 : Fin 2) = q.val := by
      unfold GatherDims.offCoord
      rw [dif_pos (show (0 : Fin 2) ∈ gather_S2x1024_S1024x1_S2x1024_0_1_n_n_1_1_21.sKept from by decide)]
      rfl
    show gather_S2x1024_S1024x1_S2x1024_0_1_n_n_1_1_21.start (ix2 q j) idx (0 : Fin 2) + gather_S2x1024_S1024x1_S2x1024_0_1_n_n_1_1_21.offCoord (ix2 q j) (0 : Fin 2) = q.val
    rw [hs, ho, Nat.zero_add]
  | ⟨1, _⟩ =>
    have ho : gather_S2x1024_S1024x1_S2x1024_0_1_n_n_1_1_21.offCoord (ix2 q j) (1 : Fin 2) = 0 :=
      GatherDims.offCoord_eq_zero _ _ _ (fun h => ((GatherDims.mem_sKept _ _).mp h).1 (List.mem_singleton.mpr rfl))
    have hs : gather_S2x1024_S1024x1_S2x1024_0_1_n_n_1_1_21.start (ix2 q j) idx (1 : Fin 2) = (clampPos (idx (ix2 j (0 : Fin 1)))).val := by
      unfold GatherDims.start
      rw [dif_pos (show (1 : Fin 2) ∈ gather_S2x1024_S1024x1_S2x1024_0_1_n_n_1_1_21.startIndexMap from List.mem_singleton.mpr rfl)]
      have hsi : gather_S2x1024_S1024x1_S2x1024_0_1_n_n_1_1_21.siIdx (ix2 q j) ⟨List.idxOf (1 : Fin 2) gather_S2x1024_S1024x1_S2x1024_0_1_n_n_1_1_21.startIndexMap,
          List.idxOf_lt_length_iff.2 (List.mem_singleton.mpr rfl)⟩ = ix2 j (0 : Fin 1) := by
        funext b; refine Fin.ext ?_
        match b with
        | ⟨0, _⟩ => rfl
        | ⟨1, _⟩ => rfl
      rw [hsi]
      rfl
    show gather_S2x1024_S1024x1_S2x1024_0_1_n_n_1_1_21.start (ix2 q j) idx (1 : Fin 2) + gather_S2x1024_S1024x1_S2x1024_0_1_n_n_1_1_21.offCoord (ix2 q j) (1 : Fin 2) = (clampPos (idx (ix2 j (0 : Fin 1)))).val
    rw [hs, ho, Nat.add_zero]

/-! ## The host code's composites -/

/-- A table's entries shifted as indexing shifts them: a negative entry moved up by the axis length. -/
def shiftV (r : IVec S1024 32) : IVec S1024 32 :=
  select (cmpi .slt r (broadcastInDim S1024 ![] bcast_S_S1024 (constantI S_ 32 0#32)))
    (addi r (broadcastInDim S1024 ![] bcast_S_S1024 (constantI S_ 32 1024#32))) r

theorem shiftV_apply (r : IVec S1024 32) (j : Fin 1024) : shiftV r (ix1 j) = Cert.Spec.wrap (r (ix1 j)) := rfl

/-- The flat table x at the positions r denotes: x[r]. -/
def takeV (x : S1024.Idx → α) (r : IVec S1024 32) : S1024.Idx → α :=
  Host.gather gather_S1024_S1024x1_S1024_n_0_n_n_0_1_1 x (broadcastInDim S1024x1 ![0] bcast_S1024_S1024x1_0 (shiftV r))

theorem takeV_apply (x : S1024.Idx → α) (r : IVec S1024 32) (j : Fin 1024) :
    takeV x r (ix1 j) = x (ix1 (Cert.Spec.pos (r (ix1 j)))) := by
  unfold takeV
  rw [take1_apply, col_apply, shiftV_apply, pos_eq]

/-- The two-row table d at the positions r denotes, row by row: d[:, r]. -/
def takeRows (d : S2x1024.Idx → α) (r : IVec S1024 32) : S2x1024.Idx → α :=
  Host.gather gather_S2x1024_S1024x1_S2x1024_0_1_n_n_1_1_21 d (broadcastInDim S1024x1 ![0] bcast_S1024_S1024x1_0 (shiftV r))

theorem takeRows_apply (d : S2x1024.Idx → α) (r : IVec S1024 32) (q : Fin 2) (j : Fin 1024) :
    takeRows d r (ix2 q j) = d (ix2 q (Cert.Spec.pos (r (ix1 j)))) := by
  unfold takeRows
  rw [take2_apply, col_apply, shiftV_apply, pos_eq]

end Reads

/-- The 0/1 matrix of "the row number, as a word, is the entry of e in this column". -/
def hotV (e : IVec S1024 32) : FVec Ideal S1024x1024 .bf16 :=
  uitofp .bf16 (cmpi .eq
    (broadcastInDim S1024x1024 ![0, 1] bcast_S1024x1_S1024x1024_0_1
      (broadcastInDim S1024x1 ![0] bcast_S1024_S1024x1_0 (iotaInDim S1024 32 0)))
    (broadcastInDim S1024x1024 ![0, 1] bcast_S1x1024_S1024x1024_0_1
      (broadcastInDim S1x1024 ![1] bcast_S1024_S1x1024_1 e)))

theorem hotV_apply (e : IVec S1024 32) (k j : Fin 1024) :
    hotV e (ix2 k j) = if BitVec.ofNat 32 k.val = e (ix1 j) then 1 else 0 := by
  have h1 : broadcastInDim S1024x1024 ![0, 1] bcast_S1024x1_S1024x1024_0_1
      (broadcastInDim S1024x1 ![0] bcast_S1024_S1024x1_0 (iotaInDim S1024 32 0)) (ix2 k j) = BitVec.ofNat 32 k.val := by
    rw [ofCol_apply, col_apply]; rfl
  have h2 : broadcastInDim S1024x1024 ![0, 1] bcast_S1x1024_S1024x1024_0_1
      (broadcastInDim S1x1024 ![1] bcast_S1024_S1x1024_1 e) (ix2 k j) = e (ix1 j) := by
    rw [ofRow_apply, row_apply]
  show (((IntOp.cmpi .eq
      (broadcastInDim S1024x1024 ![0, 1] bcast_S1024x1_S1024x1024_0_1
        (broadcastInDim S1024x1 ![0] bcast_S1024_S1024x1_0 (iotaInDim S1024 32 0)) (ix2 k j))
      (broadcastInDim S1024x1024 ![0, 1] bcast_S1x1024_S1024x1024_0_1
        (broadcastInDim S1x1024 ![1] bcast_S1024_S1x1024_1 e) (ix2 k j))).toNat : ℝ) : EReal) = _
  rw [h1, h2]
  by_cases h : BitVec.ofNat 32 k.val = e (ix1 j)
  · rw [if_pos h, h]; simp [IntOp.cmpi]
  · rw [if_neg h]; simp [IntOp.cmpi, h]

/-! ## The coefficient table's rows -/

section Rows
variable {α : Type}

/-- Row 0 of a two-row array: cut out, flattened, and laid as a row again. -/
def rowOf0 (y : S2x1024.Idx → α) : S1x1024.Idx → α :=
  broadcastInDim S1x1024 ![1] bcast_S1024_S1x1024_1
    (shapeCast S1024 (extractStridedSlice S1x1024 ![0, 0] y slices_S2x1024_S1x1024_0_0) shapeCasts_S1x1024_S1024)

/-- Row 1 of a two-row array, the same way. -/
def rowOf1 (y : S2x1024.Idx → α) : S1x1024.Idx → α :=
  broadcastInDim S1x1024 ![1] bcast_S1024_S1x1024_1
    (shapeCast S1024 (extractStridedSlice S1x1024 ![1, 0] y slices_S2x1024_S1x1024_1_0) shapeCasts_S1x1024_S1024)

theorem rowOf0_apply (y : S2x1024.Idx → α) (j : Fin 1024) : rowOf0 y (ix2 (0 : Fin 1) j) = y (ix2 (0 : Fin 2) j) := by
  unfold rowOf0
  rw [row_apply, shapeCast_1a_a_apply]
  exact slice2_axis0_apply 0 y _ (0 : Fin 1) j (0 : Fin 2) rfl

theorem rowOf1_apply (y : S2x1024.Idx → α) (j : Fin 1024) : rowOf1 y (ix2 (0 : Fin 1) j) = y (ix2 (1 : Fin 2) j) := by
  unfold rowOf1
  rw [row_apply, shapeCast_1a_a_apply]
  exact slice2_axis0_apply 1 y _ (0 : Fin 1) j (1 : Fin 2) rfl

/-- Four rows stacked along axis 0. -/
def stack4 (u0 u1 u2 u3 : S1x1024.Idx → α) : S4x1024.Idx → α :=
  concatenate S4x1024 0 [⟨S1x1024, u0⟩, ⟨S1x1024, u1⟩, ⟨S1x1024, u2⟩, ⟨S1x1024, u3⟩]
    concatenates_S1x1024_S1x1024_S1x1024_S1x1024_S4x1024_d0

/-- Off the stacking axis a piece's index keeps the column. -/
private theorem stack_hi (j : Fin 1024) (q : Fin 4) :
    ∀ b : Fin S1x1024.rank, b.cast (rfl : S1x1024.rank = S4x1024.rank) ≠ (0 : Fin S4x1024.rank) →
      ((ix2 (0 : Fin 1) j : S1x1024.Idx) b).val = ((ix2 q j : S4x1024.Idx) (b.cast rfl)).val := fun b hb => by
  match b with
  | ⟨0, _⟩ => exact (hb (Fin.ext rfl)).elim
  | ⟨1, _⟩ => rfl

/-- Row q of the stack is piece q, read at its one row. -/
theorem stack4_apply0 (u0 u1 u2 u3 : S1x1024.Idx → α) (h : 0 < 4) (j : Fin 1024) :
    stack4 u0 u1 u2 u3 (ix2 (⟨0, h⟩ : Fin 4) j) = u0 (ix2 (0 : Fin 1) j) :=
  by
  unfold stack4
  exact concatenate_apply_piece (t := S4x1024) 0 _ _ _ 0 (by simp) S1x1024 u0 rfl rfl 0 rfl (ix2 (0 : Fin 1) j)
    (stack_hi j _) rfl
theorem stack4_apply1 (u0 u1 u2 u3 : S1x1024.Idx → α) (h : 1 < 4) (j : Fin 1024) :
    stack4 u0 u1 u2 u3 (ix2 (⟨1, h⟩ : Fin 4) j) = u1 (ix2 (0 : Fin 1) j) :=
  by
  unfold stack4
  exact concatenate_apply_piece (t := S4x1024) 0 _ _ _ 1 (by simp) S1x1024 u1 rfl rfl 1 rfl (ix2 (0 : Fin 1) j)
    (stack_hi j _) rfl
theorem stack4_apply2 (u0 u1 u2 u3 : S1x1024.Idx → α) (h : 2 < 4) (j : Fin 1024) :
    stack4 u0 u1 u2 u3 (ix2 (⟨2, h⟩ : Fin 4) j) = u2 (ix2 (0 : Fin 1) j) :=
  by
  unfold stack4
  exact concatenate_apply_piece (t := S4x1024) 0 _ _ _ 2 (by simp) S1x1024 u2 rfl rfl 2 rfl (ix2 (0 : Fin 1) j)
    (stack_hi j _) rfl
theorem stack4_apply3 (u0 u1 u2 u3 : S1x1024.Idx → α) (h : 3 < 4) (j : Fin 1024) :
    stack4 u0 u1 u2 u3 (ix2 (⟨3, h⟩ : Fin 4) j) = u3 (ix2 (0 : Fin 1) j) :=
  by
  unfold stack4
  exact concatenate_apply_piece (t := S4x1024) 0 _ _ _ 3 (by simp) S1x1024 u3 rfl rfl 3 rfl (ix2 (0 : Fin 1) j)
    (stack_hi j _) rfl

end Rows

/-! ## The three buffers -/

set_option maxHeartbeats 4000000 in  -- the stretch's composed term exceeds the default budget
/-- The first selection matrix: row k, column j holds 1 exactly when k, as a word, is left[pos right[j]]. -/
theorem selA_eq (c : Dev nD) :
    (Vh m c main_v27 : S1024x1024.Idx → EReal)
      = Cert.Spec.oneHot (Cert.Spec.selA (m ((c.tc : Thread nD τ).loc main_arg4)) (m ((c.tc : Thread nD τ).loc main_arg5))) := by
  have e : (Vh m c main_v27 : S1024x1024.Idx → EReal) = hotV (takeV (m ((c.tc : Thread nD τ).loc main_arg4)) (m ((c.tc : Thread nD τ).loc main_arg5))) := by
    dsimp only [Vh, hostOps0]; after_results_simp; rfl
  rw [e]
  funext i
  obtain ⟨k, j, rfl⟩ : ∃ (k j : Fin 1024), i = ix2 k j := ⟨i 0, i 1, eq_ix2 i⟩
  rw [hotV_apply, takeV_apply]
  rfl

set_option maxHeartbeats 4000000 in  -- the stretch's composed term exceeds the default budget
/-- The second selection matrix: row k, column j holds 1 exactly when k is left[pos pw[pos right[j]]]. -/
theorem selB_eq (c : Dev nD) :
    (Vh m c main_v32 : S1024x1024.Idx → EReal)
      = Cert.Spec.oneHot (Cert.Spec.selB (m ((c.tc : Thread nD τ).loc main_arg3)) (m ((c.tc : Thread nD τ).loc main_arg4))
          (m ((c.tc : Thread nD τ).loc main_arg5))) := by
  have e : (Vh m c main_v32 : S1024x1024.Idx → EReal)
      = hotV (takeV (m ((c.tc : Thread nD τ).loc main_arg4)) (takeV (m ((c.tc : Thread nD τ).loc main_arg3)) (m ((c.tc : Thread nD τ).loc main_arg5)))) := by
    dsimp only [Vh, hostOps0]; after_results_simp; rfl
  rw [e]
  funext i
  obtain ⟨k, j, rfl⟩ : ∃ (k j : Fin 1024), i = ix2 k j := ⟨i 0, i 1, eq_ix2 i⟩
  rw [hotV_apply, takeV_apply, takeV_apply]
  rfl

set_option maxHeartbeats 4000000 in  -- the stretch's composed term exceeds the default budget
/-- The stack's four operands, as the host code leaves them. -/
theorem row62_eq (c : Dev nD) :
    (Vh m c main_v62 : S1x1024.Idx → EReal) = rowOf0 (takeRows (m ((c.tc : Thread nD τ).loc main_arg1)) (m ((c.tc : Thread nD τ).loc main_arg5))) := by
  dsimp only [Vh, hostOps0]; after_results_simp; rfl
set_option maxHeartbeats 4000000 in  -- the stretch's composed term exceeds the default budget
theorem row63_eq (c : Dev nD) :
    (Vh m c main_v63 : S1x1024.Idx → EReal) = rowOf1 (takeRows (m ((c.tc : Thread nD τ).loc main_arg1)) (m ((c.tc : Thread nD τ).loc main_arg5))) := by
  dsimp only [Vh, hostOps0]; after_results_simp; rfl
set_option maxHeartbeats 4000000 in  -- the stretch's composed term exceeds the default budget
theorem row64_eq (c : Dev nD) :
    (Vh m c main_v64 : S1x1024.Idx → EReal) = rowOf0 (takeRows (m ((c.tc : Thread nD τ).loc main_arg2)) (takeV (m ((c.tc : Thread nD τ).loc main_arg3)) (m ((c.tc : Thread nD τ).loc main_arg5)))) := by
  dsimp only [Vh, hostOps0]; after_results_simp; rfl
set_option maxHeartbeats 4000000 in  -- the stretch's composed term exceeds the default budget
theorem row65_eq (c : Dev nD) :
    (Vh m c main_v65 : S1x1024.Idx → EReal) = rowOf1 (takeRows (m ((c.tc : Thread nD τ).loc main_arg2)) (takeV (m ((c.tc : Thread nD τ).loc main_arg3)) (m ((c.tc : Thread nD τ).loc main_arg5)))) := by
  dsimp only [Vh, hostOps0]; after_results_simp; rfl

set_option maxHeartbeats 4000000 in  -- the stretch's composed term exceeds the default budget
/-- The table is the stack of those four. -/
theorem stack_eq (c : Dev nD) :
    (Vh m c main_v66 : S4x1024.Idx → EReal)
      = stack4 (Vh m c main_v62) (Vh m c main_v63) (Vh m c main_v64) (Vh m c main_v65) := by
  dsimp only [Vh, hostOps0, stack4]
  simp only [StableHlo.after_cons, StableHlo.after_nil]
  rw [StableHlo.nary_result]
  rw [StableHlo.nary_result_ne]; rotate_left; decide
  rw [StableHlo.nary_result_ne]; rotate_left; decide
  rw [StableHlo.nary_result_ne]; rotate_left; decide
  rw [StableHlo.nary_result_ne]; rotate_left; decide
  rfl

/-- The coefficient table: diag[0, r], diag[1, r], off[0, p], off[1, p] over the column. -/
theorem coef_eq (c : Dev nD) :
    (Vh m c main_v66 : S4x1024.Idx → EReal)
      = Cert.Spec.coef (m ((c.tc : Thread nD τ).loc main_arg1)) (m ((c.tc : Thread nD τ).loc main_arg2))
          (m ((c.tc : Thread nD τ).loc main_arg3)) (m ((c.tc : Thread nD τ).loc main_arg5)) := by
  rw [stack_eq, row62_eq, row63_eq, row64_eq, row65_eq]
  funext i
  obtain ⟨q, j, rfl⟩ : ∃ (q : Fin 4) (j : Fin 1024), i = ix2 q j := ⟨i 0, i 1, eq_ix2 i⟩
  match q with
  | ⟨0, h⟩ => rw [stack4_apply0, rowOf0_apply, takeRows_apply]; rfl
  | ⟨1, h⟩ => rw [stack4_apply1, rowOf1_apply, takeRows_apply]; rfl
  | ⟨2, h⟩ => rw [stack4_apply2, rowOf0_apply, takeRows_apply, takeV_apply]; rfl
  | ⟨3, h⟩ => rw [stack4_apply3, rowOf1_apply, takeRows_apply, takeV_apply]; rfl

end Cert.KernelIdeal.HostTables

end
-- ==== Proof.Bridge.lean ====
/-
  The kernel's arithmetic is the specified function.

  With every entry of `left` a position of the axis, a row of the signal against a column of a selection matrix is the
  row's entry at the position the column selects: so the kernel's four row-by-column products at column j are the
  permuted signal at r = pos right[j] (first matrix) and at p = pos pw[r] (second matrix), in both planes. The four
  coefficient rows at column j are diag[·, r] and off[·, p]. What is left is that the kernel adds its four terms one
  after the other where the specification adds two complex products: the same sum, by associativity alone.
-/
import proofs.«428286_j56160992363152_3_alg».proof.Proof.Spec

noncomputable section

namespace Cert.Spec

open Idealize.ShloMosaic Idealize.ShloMosaic.ValueIdx
open scoped BigOperators

/-- Row B of plane c of the signal against column j of a selection matrix. -/
def rowSel (x : SX.Idx → EReal) (w : SW.Idx → EReal) (c : Fin 2) (B : Fin 32768) (j : Fin 1024) : EReal :=
  ∑ k : Fin 1024, x (ix3 c B k) * w (ix2 k j)

/-- Against the first selection matrix: the permuted signal at r. -/
theorem rowSel_A (x : SX.Idx → EReal) (left right : SI.Idx → BitVec 32)
    (hleft : ∀ k : Fin 1024, 0 ≤ (left (ix1 k)).toInt ∧ (left (ix1 k)).toInt < 1024) (c : Fin 2) (B : Fin 32768) (j : Fin 1024) :
    rowSel x (oneHot (selA left right)) c B j = perm x left c B (pos (right (ix1 j))) := by
  unfold rowSel oneHot perm selA
  exact sum_oneHot (fun k => x (ix3 c B k)) _ (hleft _).1 (hleft _).2

/-- Against the second selection matrix: the permuted signal at p. -/
theorem rowSel_B (x : SX.Idx → EReal) (pw left right : SI.Idx → BitVec 32)
    (hleft : ∀ k : Fin 1024, 0 ≤ (left (ix1 k)).toInt ∧ (left (ix1 k)).toInt < 1024) (c : Fin 2) (B : Fin 32768) (j : Fin 1024) :
    rowSel x (oneHot (selB pw left right)) c B j = perm x left c B (pos (pw (ix1 (pos (right (ix1 j)))))) := by
  unfold rowSel oneHot perm selB
  exact sum_oneHot (fun k => x (ix3 c B k)) _ (hleft _).1 (hleft _).2

theorem coef_0 (diag off : SD.Idx → EReal) (pw right : SI.Idx → BitVec 32) (j : Fin 1024) :
    coef diag off pw right (ix2 (0 : Fin 4) j) = diag (ix2 0 (pos (right (ix1 j)))) := rfl
theorem coef_1 (diag off : SD.Idx → EReal) (pw right : SI.Idx → BitVec 32) (j : Fin 1024) :
    coef diag off pw right (ix2 (1 : Fin 4) j) = diag (ix2 1 (pos (right (ix1 j)))) := rfl
theorem coef_2 (diag off : SD.Idx → EReal) (pw right : SI.Idx → BitVec 32) (j : Fin 1024) :
    coef diag off pw right (ix2 (2 : Fin 4) j) = off (ix2 0 (pos (pw (ix1 (pos (right (ix1 j))))))) := rfl
theorem coef_3 (diag off : SD.Idx → EReal) (pw right : SI.Idx → BitVec 32) (j : Fin 1024) :
    coef diag off pw right (ix2 (3 : Fin 4) j) = off (ix2 1 (pos (pw (ix1 (pos (right (ix1 j))))))) := rfl

/-- The real plane: the kernel's running sum of four terms is the specification's sum of two complex products. -/
theorem kernel_re (x : SX.Idx → EReal) (diag off : SD.Idx → EReal) (pw left right : SI.Idx → BitVec 32)
    (hleft : ∀ k : Fin 1024, 0 ≤ (left (ix1 k)).toInt ∧ (left (ix1 k)).toInt < 1024) (B : Fin 32768) (j : Fin 1024) :
    ((rowSel x (oneHot (selA left right)) 0 B j * coef diag off pw right (ix2 (0 : Fin 4) j)
        - rowSel x (oneHot (selA left right)) 1 B j * coef diag off pw right (ix2 (1 : Fin 4) j))
      + rowSel x (oneHot (selB pw left right)) 0 B j * coef diag off pw right (ix2 (2 : Fin 4) j))
      - rowSel x (oneHot (selB pw left right)) 1 B j * coef diag off pw right (ix2 (3 : Fin 4) j)
    = Gat x diag off pw left right 0 B j := by
  rw [rowSel_A x left right hleft, rowSel_A x left right hleft, rowSel_B x pw left right hleft, rowSel_B x pw left right hleft,
    coef_0, coef_1, coef_2, coef_3]
  show _ = mulRe x left diag B _ + mulRe x left off B _
  unfold mulRe
  simp only [sub_eq_add_neg, add_assoc]

/-- The imaginary plane, likewise. -/
theorem kernel_im (x : SX.Idx → EReal) (diag off : SD.Idx → EReal) (pw left right : SI.Idx → BitVec 32)
    (hleft : ∀ k : Fin 1024, 0 ≤ (left (ix1 k)).toInt ∧ (left (ix1 k)).toInt < 1024) (B : Fin 32768) (j : Fin 1024) :
    ((rowSel x (oneHot (selA left right)) 0 B j * coef diag off pw right (ix2 (1 : Fin 4) j)
        + rowSel x (oneHot (selA left right)) 1 B j * coef diag off pw right (ix2 (0 : Fin 4) j))
      + rowSel x (oneHot (selB pw left right)) 0 B j * coef diag off pw right (ix2 (3 : Fin 4) j))
      + rowSel x (oneHot (selB pw left right)) 1 B j * coef diag off pw right (ix2 (2 : Fin 4) j)
    = Gat x diag off pw left right 1 B j := by
  rw [rowSel_A x left right hleft, rowSel_A x left right hleft, rowSel_B x pw left right hleft, rowSel_B x pw left right hleft,
    coef_0, coef_1, coef_2, coef_3]
  show _ = mulIm x left diag B _ + mulIm x left off B _
  unfold mulIm
  simp only [add_assoc]

end Cert.Spec

end
-- ==== Proof.KValue.lean ====
/-
  The kernel's result array is the specified function of its arguments.

  Point t of the grid writes back rows 512 t … 512 t + 511 of both planes. Its signal block is those rows of the
  signal; the selection matrices and the coefficient table are staged whole, the same at every point, and are what the
  host code computed from the integer tables and diag, off. So the block the body leaves at point t is the specified
  array restricted to those rows (every entry of `left` being a position of the axis), the 64 blocks cover the array,
  and the array after the run is the specified one.
-/
import proofs.«428286_j56160992363152_3_alg».proof.Proof.FrameIdeal
import proofs.«428286_j56160992363152_3_alg».proof.Proof.OutBlock
import proofs.«428286_j56160992363152_3_alg».proof.Proof.HostTables
import proofs.«428286_j56160992363152_3_alg».proof.Proof.Bridge
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-- The six argument arrays as the program is started with, at their literal types. -/
abbrev aX (c : Dev nD) : S2x32768x1024.Idx → EReal := m ((c.tc : Thread nD τ).loc main_arg0)
abbrev aDiag (c : Dev nD) : S2x1024.Idx → EReal := m ((c.tc : Thread nD τ).loc main_arg1)
abbrev aOff (c : Dev nD) : S2x1024.Idx → EReal := m ((c.tc : Thread nD τ).loc main_arg2)
abbrev aPw (c : Dev nD) : S1024.Idx → BitVec 32 := m ((c.tc : Thread nD τ).loc main_arg3)
abbrev aLeft (c : Dev nD) : S1024.Idx → BitVec 32 := m ((c.tc : Thread nD τ).loc main_arg4)
abbrev aRight (c : Dev nD) : S1024.Idx → BitVec 32 := m ((c.tc : Thread nD τ).loc main_arg5)

/-- The specified array of them. -/
abbrev Gm (c : Dev nD) : S2x32768x1024.Idx → EReal :=
  Cert.Spec.G (aX m c) (aDiag m c) (aOff m c) (aPw m c) (aLeft m c) (aRight m c)

/-- Every entry of `left` is a position of the axis. -/
def LeftOk (c : Dev nD) : Prop := ∀ k : Fin 1024, 0 ≤ (aLeft m c (ix1 k)).toInt ∧ (aLeft m c (ix1 k)).toInt < 1024

theorem t_lt (t : Fin cfg0.N) : t.val < 64 := lt_of_lt_of_eq t.isLt N_0

/-- Row b of block t is row 512 t + b of the array. -/
def rowOf (t : Fin cfg0.N) (b : Fin 512) : Fin 32768 := ⟨512 * t.val + b.val, by have := t_lt t; omega⟩

/-- The printed index maps, decided over the grid: the signal's and the result's blocks move along the row axis with
    the point; the matrices and the table stay. -/
theorem idx_facts : ∀ t : Fin cfg0.N,
    win0_0.index t (0 : Fin 3) = 0 ∧ win0_0.index t (1 : Fin 3) = t.val ∧ win0_0.index t (2 : Fin 3) = 0
    ∧ win0_4.index t (0 : Fin 3) = 0 ∧ win0_4.index t (1 : Fin 3) = t.val ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The input blocks at a point -/

/-- The signal block: rows 512 t + b of the signal as launched. -/
theorem xblk_apply (c : Dev nD) (t : Fin cfg0.N) (cc : Fin 2) (b : Fin 512) (k : Fin 1024) :
    (iblk m c 0 t : S2x512x1024.Idx → EReal) (ix3 cc b k) = aX m c (ix3 cc (rowOf t b) k) := by
  obtain ⟨e0, e1, e2, -⟩ := idx_facts t
  show V m c main_arg0 (((cfg0.win 0).blk t).view.emb (ix3 cc b k)) = _
  rw [V_main_arg0]
  show aX m c _ = aX m c _
  congr 1
  funext a; apply Fin.ext
  match a with
  | ⟨0, _⟩ => show win0_0.index t (0 : Fin 3) * 2 + 1 * cc.val = cc.val; omega
  | ⟨1, _⟩ => show win0_0.index t (1 : Fin 3) * 512 + 1 * b.val = 512 * t.val + b.val; omega
  | ⟨2, _⟩ => show win0_0.index t (2 : Fin 3) * 1024 + 1 * k.val = k.val; omega

/-- The first selection matrix, staged whole. -/
theorem wablk_apply (c : Dev nD) (t : Fin cfg0.N) (k j : Fin 1024) :
    (iblk m c 1 t : S1024x1024.Idx → EReal) (ix2 k j)
      = Cert.Spec.oneHot (Cert.Spec.selA (aLeft m c) (aRight m c)) (ix2 k j) := by
  obtain ⟨-, -, -, -, -, -, e0, e1, -⟩ := idx_facts t
  show (V m c main_v27 : S1024x1024.Idx → EReal) (((cfg0.win 1).blk t).view.emb (ix2 k j)) = _
  have hv : (V m c main_v27 : S1024x1024.Idx → EReal) = _ := HostTables.selA_eq m c
  rw [hv]
  congr 1
  funext a; apply Fin.ext
  match a with
  | ⟨0, _⟩ => show win0_1.index t (0 : Fin 2) * 1024 + 1 * k.val = k.val; omega
  | ⟨1, _⟩ => show win0_1.index t (1 : Fin 2) * 1024 + 1 * j.val = j.val; omega

/-- The second selection matrix, staged whole. -/
theorem wbblk_apply (c : Dev nD) (t : Fin cfg0.N) (k j : Fin 1024) :
    (iblk m c 2 t : S1024x1024.Idx → EReal) (ix2 k j)
      = Cert.Spec.oneHot (Cert.Spec.selB (aPw m c) (aLeft m c) (aRight m c)) (ix2 k j) := by
  obtain ⟨-, -, -, -, -, -, -, -, e0, e1, -⟩ := idx_facts t
  show (V m c main_v32 : S1024x1024.Idx → EReal) (((cfg0.win 2).blk t).view.emb (ix2 k j)) = _
  have hv : (V m c main_v32 : S1024x1024.Idx → EReal) = _ := HostTables.selB_eq m c
  rw [hv]
  congr 1
  funext a; apply Fin.ext
  match a with
  | ⟨0, _⟩ => show win0_2.index t (0 : Fin 2) * 1024 + 1 * k.val = k.val; omega
  | ⟨1, _⟩ => show win0_2.index t (1 : Fin 2) * 1024 + 1 * j.val = j.val; omega

/-- The coefficient table, staged whole. -/
theorem cfblk_apply (c : Dev nD) (t : Fin cfg0.N) (q : Fin 4) (j : Fin 1024) :
    (iblk m c 3 t : S4x1024.Idx → EReal) (ix2 q j)
      = Cert.Spec.coef (aDiag m c) (aOff m c) (aPw m c) (aRight m c) (ix2 q j) := by
  obtain ⟨-, -, -, -, -, -, -, -, -, -, e0, e1⟩ := idx_facts t
  show (V m c main_v66 : S4x1024.Idx → EReal) (((cfg0.win 3).blk t).view.emb (ix2 q j)) = _
  have hv : (V m c main_v66 : S4x1024.Idx → EReal) = _ := HostTables.coef_eq m c
  rw [hv]
  congr 1
  funext a; apply Fin.ext
  match a with
  | ⟨0, _⟩ => show win0_3.index t (0 : Fin 2) * 4 + 1 * q.val = q.val; omega
  | ⟨1, _⟩ => show win0_3.index t (1 : Fin 2) * 1024 + 1 * j.val = j.val; omega

/-- A block row against a staged selection matrix is the array's row against it. -/
theorem rowDot_A (c : Dev nD) (t : Fin cfg0.N) (cc : Fin 2) (b : Fin 512) (j : Fin 1024) :
    Payload.rowDot (iblk m c 0 t) (iblk m c 1 t) cc b j
      = Cert.Spec.rowSel (aX m c) (Cert.Spec.oneHot (Cert.Spec.selA (aLeft m c) (aRight m c))) cc (rowOf t b) j := by
  unfold Payload.rowDot Cert.Spec.rowSel
  refine Finset.sum_congr rfl fun k _ => ?_
  rw [xblk_apply, wablk_apply]
theorem rowDot_B (c : Dev nD) (t : Fin cfg0.N) (cc : Fin 2) (b : Fin 512) (j : Fin 1024) :
    Payload.rowDot (iblk m c 0 t) (iblk m c 2 t) cc b j
      = Cert.Spec.rowSel (aX m c) (Cert.Spec.oneHot (Cert.Spec.selB (aPw m c) (aLeft m c) (aRight m c))) cc (rowOf t b) j := by
  unfold Payload.rowDot Cert.Spec.rowSel
  refine Finset.sum_congr rfl fun k _ => ?_
  rw [xblk_apply, wbblk_apply]

/-! ## What point t writes back -/

/-- The specified array on the rows of block t. -/
def Gblk (c : Dev nD) (t : Fin cfg0.N) : S2x512x1024.Idx → EReal :=
  fun y => Cert.Spec.Gat (aX m c) (aDiag m c) (aOff m c) (aPw m c) (aLeft m c) (aRight m c) (y 0) (rowOf t (y 1)) (y 2)

/-- The block the body leaves at point t is the specified array on its rows. -/
theorem out_eq_Gblk (c : Dev nD) (hleft : LeftOk m c) (t : Fin cfg0.N) :
    (out0_4 (F := Ideal) (iblk m c 0 t) (iblk m c 1 t) (iblk m c 2 t) (iblk m c 3 t) : S2x512x1024.Idx → EReal) = Gblk m c t := by
  refine OutBlock.out_eq (iblk m c 0 t) (iblk m c 1 t) (iblk m c 2 t) (iblk m c 3 t) (Gblk m c t) ?_ ?_
  · intro b j
    rw [rowDot_A, rowDot_A, rowDot_B, rowDot_B, cfblk_apply, cfblk_apply, cfblk_apply, cfblk_apply]
    exact Cert.Spec.kernel_re (aX m c) (aDiag m c) (aOff m c) (aPw m c) (aLeft m c) (aRight m c) hleft (rowOf t b) j
  · intro b j
    rw [rowDot_A, rowDot_A, rowDot_B, rowDot_B, cfblk_apply, cfblk_apply, cfblk_apply, cfblk_apply]
    exact Cert.Spec.kernel_im (aX m c) (aDiag m c) (aOff m c) (aPw m c) (aLeft m c) (aRight m c) hleft (rowOf t b) j

/-- What point t writes back is block t of the specified array. -/
theorem flushed4_eq (c : Dev nD) (hleft : LeftOk m c) (t : Fin cfg0.N) :
    (dats m 0 c).flushed 4 t = ((cfg0.win 4).blk t).view.read (Elt Ideal) (Gm m c) := by
  obtain ⟨-, -, -, e0, e1, e2, -⟩ := idx_facts t
  show (cfg0.win 4).cut (grid0.coords t) ((dats m 0 c).after 4 t) = _
  rw [after0_4]
  funext y
  show (out0_4 (F := Ideal) (iblk m c 0 t) (iblk m c 1 t) (iblk m c 2 t) (iblk m c 3 t) : S2x512x1024.Idx → EReal) y
    = Gm m c (((cfg0.win 4).blk t).view.emb y)
  rw [out_eq_Gblk m c hleft t]
  show Cert.Spec.G (aX m c) (aDiag m c) (aOff m c) (aPw m c) (aLeft m c) (aRight m c) (ix3 (y 0) (rowOf t (y 1)) (y 2)) = _
  congr 1
  funext a; apply Fin.ext
  match a with
  | ⟨0, _⟩ => show (y 0).val = win0_4.index t (0 : Fin 3) * 2 + 1 * (y 0).val; omega
  | ⟨1, _⟩ => show 512 * t.val + (y 1).val = win0_4.index t (1 : Fin 3) * 512 + 1 * (y 1).val; omega
  | ⟨2, _⟩ => show (y 2).val = win0_4.index t (2 : Fin 3) * 1024 + 1 * (y 2).val; omega

/-! ## The blocks cover the array -/

/-- An index of the array is in point t's block iff each coordinate is in the block's range on its axis. -/
theorem mem_blk4 (t : Fin cfg0.N) (i : S2x32768x1024.Idx) :
    i ∈ ((cfg0.win 4).blk t).view.set ↔ ∀ a : Fin 3, win0_4.index t a * S2x512x1024.size a ≤ (i a).val
      ∧ (i a).val < win0_4.index t a * S2x512x1024.size a + S2x512x1024.size a := by
  show i ∈ ((View.whole main_v67).slice (win0_4.rect t)).set ↔ _
  rw [View.set_slice_whole, Rect.mem_set_unit]
  exact Iff.rfl

/-- Row R of the array is in the block of point R / 512. -/
theorem cover4 (i : S2x32768x1024.Idx) :
    ∃ t : Fin cfg0.N, (cfg0.win 4).flush t = true ∧ i ∈ ((cfg0.win 4).blk t).view.set := by
  have hi0 : (i 0).val < 2 := (i 0).isLt
  have hi1 : (i 1).val < 32768 := (i 1).isLt
  have hi2 : (i 2).val < 1024 := (i 2).isLt
  have hN : cfg0.N = 64 := N_0
  let t : Fin cfg0.N := ⟨(i 1).val / 512, by rw [hN]; omega⟩
  obtain ⟨-, -, -, e0, e1, e2, -⟩ := idx_facts t
  have ht : t.val = (i 1).val / 512 := rfl
  refine ⟨t, flush0_4 t, ?_⟩
  rw [mem_blk4]
  intro a
  match a with
  | ⟨0, _⟩ => show win0_4.index t (0 : Fin 3) * 2 ≤ (i 0).val ∧ (i 0).val < win0_4.index t (0 : Fin 3) * 2 + 2; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The result array after the run. -/
theorem final4 (c : Dev nD) (hleft : LeftOk m c) : (dats m 0 c).arrAt 4 cfg0.N = Gm m c :=
  (dats m 0 c).arrAt_eq_of_cover 4 (Gm m c) (fun t _ => flushed4_eq m c hleft t) (cover4)

/-! ## The run, read -/

/-- Every weakly fair execution terminates with the result array at the specified function of the arguments and the
    arguments unchanged, when every entry of `left` is a position of the axis. -/
theorem run (hleft : ∀ c, LeftOk m c) :
    θ_run defs (onTc (τ := τ) (main (F := Ideal))) ⟨m, fun _ => 0, ρ⟩ (fun r => ∀ c : Dev nD,
      r.2.mem ((c.tc : Thread nD τ).loc main_v67) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (final4 m c (hleft c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.KValue

end
-- ==== Proof.RefValue.lean ====
/-
  The reference's result is the specified function of its arguments.

  The reference permutes the signal's last axis by `left`, multiplies it (as complex numbers, the two planes stacked on
  axis 0) by `diag` and by `off`, permutes the second product by `pw`, adds, and permutes the sum by `right`. Each
  permutation is a gather along the last axis whose start indices are the table after the shift of negative entries;
  the gather reads them signed and clamps them into the axis, which is the position `Cert.Spec.pos` of the entry.
  Read at plane c, row b, column j this is `Cert.Spec.Gat`.
-/
import proofs.«428286_j56160992363152_3_alg».proof.Proof.Gen.ReferenceIdeal.Run
import proofs.«428286_j56160992363152_3_alg».proof.Proof.Gen.ReferenceIdeal.Read
import proofs.«428286_j56160992363152_3_alg».proof.Proof.Spec
import Idealize.ShloMosaic.Lib.ValueIdx
import Idealize.ShloMosaic.Lib.Pipeline.Value

noncomputable section

namespace Cert.ReferenceIdeal.RefValue

open Idealize.ShloMosaic Idealize.ShloMosaic.TcCoe Idealize.ShloMosaic.ValueIdx Idealize.SL.Sem
open Cert.ReferenceIdeal
open Cert.ReferenceIdeal.Read

/-! ## The two operations that are not read elementwise: the gather along the last axis, the stacking of two planes -/

section Shape
variable {α : Type}

/-- The gather along the last axis read at plane c, row b, column k: the operand at the same plane and row, at the
    column the k-th start index names, read signed and clamped into 0 … 1023 (`p`, given by its value). -/
theorem gather_apply (x : S2x32768x1024.Idx → α) (idx : IVec S1024x1 32) (c : Fin 2) (b : Fin 32768) (k : Fin 1024)
    (p : Fin 1024) (hp : p.val = min (idx (ix2 k (0 : Fin 1))).toInt.toNat 1023) :
    Host.gather gather_S2x32768x1024_S1024x1_S2x32768x1024_01_2_n_n_2_1_2327681 x idx (ix3 c b k) = x (ix3 c b p) := by
  unfold Host.gather
  congr 1
  funext a
  refine Fin.ext ?_
  match a with
  | ⟨0, _⟩ =>
    show gather_S2x32768x1024_S1024x1_S2x32768x1024_01_2_n_n_2_1_2327681.start (ix3 c b k) idx 0 + gather_S2x32768x1024_S1024x1_S2x32768x1024_01_2_n_n_2_1_2327681.batchCoord (ix3 c b k) 0 + gather_S2x32768x1024_S1024x1_S2x32768x1024_01_2_n_n_2_1_2327681.offCoord (ix3 c b k) 0 = c.val
    have h1 : gather_S2x32768x1024_S1024x1_S2x32768x1024_01_2_n_n_2_1_2327681.start (ix3 c b k) idx 0 = 0 := rfl
    have h2 : gather_S2x32768x1024_S1024x1_S2x32768x1024_01_2_n_n_2_1_2327681.batchCoord (ix3 c b k) 0 = 0 := rfl
    have h3 : gather_S2x32768x1024_S1024x1_S2x32768x1024_01_2_n_n_2_1_2327681.offCoord (ix3 c b k) 0 = c.val := rfl
    omega
  | ⟨1, _⟩ =>
    show gather_S2x32768x1024_S1024x1_S2x32768x1024_01_2_n_n_2_1_2327681.start (ix3 c b k) idx 1 + gather_S2x32768x1024_S1024x1_S2x32768x1024_01_2_n_n_2_1_2327681.batchCoord (ix3 c b k) 1 + gather_S2x32768x1024_S1024x1_S2x32768x1024_01_2_n_n_2_1_2327681.offCoord (ix3 c b k) 1 = b.val
    have h1 : gather_S2x32768x1024_S1024x1_S2x32768x1024_01_2_n_n_2_1_2327681.start (ix3 c b k) idx 1 = 0 := rfl
    have h2 : gather_S2x32768x1024_S1024x1_S2x32768x1024_01_2_n_n_2_1_2327681.batchCoord (ix3 c b k) 1 = 0 := rfl
    have h3 : gather_S2x32768x1024_S1024x1_S2x32768x1024_01_2_n_n_2_1_2327681.offCoord (ix3 c b k) 1 = b.val := rfl
    omega
  | ⟨2, _⟩ =>
    show gather_S2x32768x1024_S1024x1_S2x32768x1024_01_2_n_n_2_1_2327681.start (ix3 c b k) idx 2 + gather_S2x32768x1024_S1024x1_S2x32768x1024_01_2_n_n_2_1_2327681.batchCoord (ix3 c b k) 2 + gather_S2x32768x1024_S1024x1_S2x32768x1024_01_2_n_n_2_1_2327681.offCoord (ix3 c b k) 2 = p.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S2x32768x1024_S1024x1_S2x32768x1024_01_2_n_n_2_1_2327681.startIndexMap from List.mem_singleton.mpr rfl)]
    have hsi : gather_S2x32768x1024_S1024x1_S2x32768x1024_01_2_n_n_2_1_2327681.siIdx (ix3 c b k) ⟨List.idxOf (2 : Fin 3) gather_S2x32768x1024_S1024x1_S2x32768x1024_01_2_n_n_2_1_2327681.startIndexMap,
        List.idxOf_lt_length_iff.2 (List.mem_singleton.mpr rfl)⟩ = ix2 k (0 : Fin 1) := by
      funext d; refine Fin.ext ?_
      match d with
      | ⟨0, _⟩ => rfl
      | ⟨1, _⟩ => rfl
    rw [hsi, hp]
    rfl

/-- Two planes stacked along axis 0, read at plane c: the first at c = 0, the second at c = 1. -/
theorem stack_apply (u v : S1x32768x1024.Idx → α) (h : Shape.Concatenates [S1x32768x1024, S1x32768x1024] S2x32768x1024 0)
    (c : Fin 2) (b : Fin 32768) (k : Fin 1024) :
    concatenate S2x32768x1024 0 [⟨S1x32768x1024, u⟩, ⟨S1x32768x1024, v⟩] h (ix3 c b k)
      = if c.val = 0 then u (ix3 (0 : Fin 1) b k) else v (ix3 (0 : Fin 1) b k) := by
  have hc := c.isLt
  by_cases h0 : c.val = 0
  · rw [if_pos h0]
    exact concatenate_pair_apply_left (0 : Fin 3) u v h (ix3 c b k) rfl (ix3 (0 : Fin 1) b k) (fun a => match a with
      | ⟨0, _⟩ => by show (0 : Nat) = c.val; omega
      | ⟨1, _⟩ => rfl
      | ⟨2, _⟩ => rfl)
  · rw [if_neg h0]
    exact concatenate_pair_apply_right (0 : Fin 3) u v h (ix3 c b k) rfl rfl (ix3 (0 : Fin 1) b k) (fun a ha => match a, ha with
      | ⟨0, _⟩, ha => absurd (Fin.ext rfl) ha
      | ⟨1, _⟩, _ => rfl
      | ⟨2, _⟩, _ => rfl) (by show (0 : Nat) + 1 = c.val; omega)

end Shape

/-! ## The tables as start indices -/

/-- The start index the gather by `left` reads for column k: the table entry after the shift of negative entries. -/
theorem start_apply (t : (⟨S1024, .i32⟩ : BufTy).Contents (Elt Ideal)) (k : Fin 1024) :
    val_main_v5 (F := Ideal) t (ix2 k (0 : Fin 1)) = Cert.Spec.wrap (t (ix1 k)) := by
  have hi : idx_main_v5 (ix2 k (0 : Fin 1)) = ix1 k := by
    funext a; match a with | ⟨0, _⟩ => rfl
  rw [val_main_v5_apply, hi, val_main_v4_apply, val_main_v1_apply, val_main_v3_apply, val_main_v0_apply, val_main_v2_apply,
    val_main_c_apply, val_main_c_0_apply]
  rfl

/-- The gathers by `pw` and by `right` prepare their start indices by the same operations. -/
theorem start_pw_eq (t : (⟨S1024, .i32⟩ : BufTy).Contents (Elt Ideal)) : val_main_v78 (F := Ideal) t = val_main_v5 (F := Ideal) t := rfl
theorem start_right_eq (t : (⟨S1024, .i32⟩ : BufTy).Contents (Elt Ideal)) : val_main_v86 (F := Ideal) t = val_main_v5 (F := Ideal) t := rfl

/-- A gather along the last axis whose start indices are a table prepared that way reads column `pos` of the entry. -/
theorem gather_pos_apply (x : (⟨S2x32768x1024, .f32⟩ : BufTy).Contents (Elt Ideal)) (t : (⟨S1024, .i32⟩ : BufTy).Contents (Elt Ideal)) (c : Fin 2) (b : Fin 32768) (k : Fin 1024) :
    Host.gather gather_S2x32768x1024_S1024x1_S2x32768x1024_01_2_n_n_2_1_2327681 x (val_main_v5 (F := Ideal) t) (ix3 c b k) = x (ix3 c b (Cert.Spec.pos (t (ix1 k)))) :=
  gather_apply x (val_main_v5 (F := Ideal) t) c b k (Cert.Spec.pos (t (ix1 k))) (by rw [start_apply]; rfl)

/-! ## The permuted signal, plane by plane, and the rows of a complex vector -/

/-- The signal gathered by `left` is the specification's permuted signal. -/
theorem perm_apply (x : (⟨S2x32768x1024, .f32⟩ : BufTy).Contents (Elt Ideal)) (l : (⟨S1024, .i32⟩ : BufTy).Contents (Elt Ideal)) (c : Fin 2) (b : Fin 32768) (k : Fin 1024) :
    val_main_v6 (F := Ideal) x l (ix3 c b k) = Cert.Spec.perm x l c b k := by
  unfold val_main_v6 Cert.Spec.perm
  exact gather_pos_apply x l c b k

/-- Plane 0 of the permuted signal as a [32768, 1024] array. -/
theorem plane0_apply (x : (⟨S2x32768x1024, .f32⟩ : BufTy).Contents (Elt Ideal)) (l : (⟨S1024, .i32⟩ : BufTy).Contents (Elt Ideal)) (b : Fin 32768) (k : Fin 1024) :
    val_main_v8 (F := Ideal) x l (ix2 b k) = Cert.Spec.perm x l 0 b k := by
  have hi : idx_main_v7 (idx_main_v8 (ix2 b k)) = ix3 (0 : Fin 2) b k := by
    have hb := b.isLt; have hk := k.isLt
    funext a; refine Fin.ext ?_
    match a with
    | ⟨0, _⟩ => rfl
    | ⟨1, _⟩ => show (b.val * 1024 + k.val) / 1024 % 32768 = b.val; omega
    | ⟨2, _⟩ => show (b.val * 1024 + k.val) % 1024 = k.val; omega
  rw [val_main_v8_apply, val_main_v7_apply, hi, perm_apply]

/-- Plane 1 of the permuted signal as a [32768, 1024] array. -/
theorem plane1_apply (x : (⟨S2x32768x1024, .f32⟩ : BufTy).Contents (Elt Ideal)) (l : (⟨S1024, .i32⟩ : BufTy).Contents (Elt Ideal)) (b : Fin 32768) (k : Fin 1024) :
    val_main_v15 (F := Ideal) x l (ix2 b k) = Cert.Spec.perm x l 1 b k := by
  have hi : idx_main_v14 (idx_main_v15 (ix2 b k)) = ix3 (1 : Fin 2) b k := by
    have hb := b.isLt; have hk := k.isLt
    funext a; refine Fin.ext ?_
    match a with
    | ⟨0, _⟩ => rfl
    | ⟨1, _⟩ => show (b.val * 1024 + k.val) / 1024 % 32768 = b.val; omega
    | ⟨2, _⟩ => show (b.val * 1024 + k.val) % 1024 = k.val; omega
  rw [val_main_v15_apply, val_main_v14_apply, hi, perm_apply]

/-- Row 0 of a complex vector, repeated down the rows of a [32768, 1024] array. -/
theorem row0_apply (d : (⟨S2x1024, .f32⟩ : BufTy).Contents (Elt Ideal)) (b : Fin 32768) (k : Fin 1024) :
    val_main_v12 (F := Ideal) d (ix2 b k) = d (ix2 (0 : Fin 2) k) := by
  have hi : idx_main_v9 (idx_main_v10 (idx_main_v11 (idx_main_v12 (ix2 b k)))) = ix2 (0 : Fin 2) k := by
    have hk := k.isLt
    funext a; refine Fin.ext ?_
    match a with
    | ⟨0, _⟩ => rfl
    | ⟨1, _⟩ => show k.val % 1024 = k.val; omega
  rw [val_main_v12_apply, val_main_v11_apply, val_main_v10_apply, val_main_v9_apply, hi]

/-- Row 1 of a complex vector, repeated down the rows of a [32768, 1024] array. -/
theorem row1_apply (d : (⟨S2x1024, .f32⟩ : BufTy).Contents (Elt Ideal)) (b : Fin 32768) (k : Fin 1024) :
    val_main_v19 (F := Ideal) d (ix2 b k) = d (ix2 (1 : Fin 2) k) := by
  have hi : idx_main_v16 (idx_main_v17 (idx_main_v18 (idx_main_v19 (ix2 b k)))) = ix2 (1 : Fin 2) k := by
    have hk := k.isLt
    funext a; refine Fin.ext ?_
    match a with
    | ⟨0, _⟩ => rfl
    | ⟨1, _⟩ => show k.val % 1024 = k.val; omega
  rw [val_main_v19_apply, val_main_v18_apply, val_main_v17_apply, val_main_v16_apply, hi]

/-! ## The complex product with a vector -/

/-- The real part of the product. -/
theorem re_apply (x : (⟨S2x32768x1024, .f32⟩ : BufTy).Contents (Elt Ideal)) (d : (⟨S2x1024, .f32⟩ : BufTy).Contents (Elt Ideal)) (l : (⟨S1024, .i32⟩ : BufTy).Contents (Elt Ideal)) (b : Fin 32768) (k : Fin 1024) :
    val_main_v21 (F := Ideal) x d l (ix2 b k) = Cert.Spec.mulRe x l d b k := by
  rw [val_main_v21_apply, val_main_v13_apply, val_main_v20_apply, plane0_apply, plane1_apply, row0_apply, row1_apply]
  rfl

/-- For the imaginary part the program slices the planes and the rows again, by the same operations. -/
theorem plane0_again (x : (⟨S2x32768x1024, .f32⟩ : BufTy).Contents (Elt Ideal)) (l : (⟨S1024, .i32⟩ : BufTy).Contents (Elt Ideal)) : val_main_v23 (F := Ideal) x l = val_main_v8 (F := Ideal) x l := rfl
theorem plane1_again (x : (⟨S2x32768x1024, .f32⟩ : BufTy).Contents (Elt Ideal)) (l : (⟨S1024, .i32⟩ : BufTy).Contents (Elt Ideal)) : val_main_v30 (F := Ideal) x l = val_main_v15 (F := Ideal) x l := rfl
theorem row1_again (d : (⟨S2x1024, .f32⟩ : BufTy).Contents (Elt Ideal)) : val_main_v27 (F := Ideal) d = val_main_v19 (F := Ideal) d := rfl
theorem row0_again (d : (⟨S2x1024, .f32⟩ : BufTy).Contents (Elt Ideal)) : val_main_v34 (F := Ideal) d = val_main_v12 (F := Ideal) d := rfl

/-- The imaginary part of the product. -/
theorem im_apply (x : (⟨S2x32768x1024, .f32⟩ : BufTy).Contents (Elt Ideal)) (d : (⟨S2x1024, .f32⟩ : BufTy).Contents (Elt Ideal)) (l : (⟨S1024, .i32⟩ : BufTy).Contents (Elt Ideal)) (b : Fin 32768) (k : Fin 1024) :
    val_main_v36 (F := Ideal) x d l (ix2 b k) = Cert.Spec.mulIm x l d b k := by
  rw [val_main_v36_apply, val_main_v28_apply, val_main_v35_apply, plane0_again, plane1_again, row1_again, row0_again,
    plane0_apply, plane1_apply, row0_apply, row1_apply]
  rfl

/-- The product with its two parts stacked on axis 0. -/
theorem cmul_apply (x : (⟨S2x32768x1024, .f32⟩ : BufTy).Contents (Elt Ideal)) (d : (⟨S2x1024, .f32⟩ : BufTy).Contents (Elt Ideal)) (l : (⟨S1024, .i32⟩ : BufTy).Contents (Elt Ideal)) (c : Fin 2) (b : Fin 32768) (k : Fin 1024) :
    val_main_v39 (F := Ideal) x d l (ix3 c b k)
      = if c.val = 0 then Cert.Spec.mulRe x l d b k else Cert.Spec.mulIm x l d b k := by
  have hre : idx_main_v37 (ix3 (0 : Fin 1) b k) = ix2 b k := by
    funext a; match a with | ⟨0, _⟩ => rfl | ⟨1, _⟩ => rfl
  have him : idx_main_v38 (ix3 (0 : Fin 1) b k) = ix2 b k := by
    funext a; match a with | ⟨0, _⟩ => rfl | ⟨1, _⟩ => rfl
  unfold val_main_v39
  rw [stack_apply, val_main_v37_apply, val_main_v38_apply, hre, him, re_apply, im_apply]

/-- The product with `off` is computed by the same operations as the product with `diag`. -/
theorem cmul_off_eq (x : (⟨S2x32768x1024, .f32⟩ : BufTy).Contents (Elt Ideal)) (d : (⟨S2x1024, .f32⟩ : BufTy).Contents (Elt Ideal)) (l : (⟨S1024, .i32⟩ : BufTy).Contents (Elt Ideal)) :
    val_main_v72 (F := Ideal) x d l = val_main_v39 (F := Ideal) x d l := rfl

/-! ## The result -/

/-- The last stage read at plane c, row b, column j. -/
theorem result_apply (x : (⟨S2x32768x1024, .f32⟩ : BufTy).Contents (Elt Ideal)) (dg of : (⟨S2x1024, .f32⟩ : BufTy).Contents (Elt Ideal)) (pw l r : (⟨S1024, .i32⟩ : BufTy).Contents (Elt Ideal)) (c : Fin 2) (b : Fin 32768) (j : Fin 1024) :
    val_main_v87 (F := Ideal) x dg of pw l r (ix3 c b j) = Cert.Spec.Gat x dg of pw l r c b j := by
  unfold val_main_v87
  rw [start_right_eq, gather_pos_apply, val_main_v80_apply]
  unfold val_main_v79
  rw [start_pw_eq, gather_pos_apply, cmul_off_eq, cmul_apply, cmul_apply]
  unfold Cert.Spec.Gat
  by_cases h0 : c.val = 0
  · simp only [if_pos h0]; rfl
  · simp only [if_neg h0]; rfl

/-- The reference run's result term is the specified array of the launch contents of its six arguments. -/
theorem res_eq_G (m : (ℓ : Loc nD τ sig) → Buf (Elt Ideal) ℓ) (c : Dev nD) :
    (Cert.ReferenceIdeal.Value.res_main_v87 (F := Ideal) m c : S2x32768x1024.Idx → EReal)
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  obtain ⟨p, b, j, rfl⟩ : ∃ (p : Fin 2) (b : Fin 32768) (j : Fin 1024), i = ix3 p b j := ⟨i 0, i 1, i 2, eq_ix3 i⟩
  rw [Cert.Spec.G_ix3, val_main_v87_eq]
  exact result_apply _ _ _ _ _ _ p b j

end Cert.ReferenceIdeal.RefValue

end
-- ==== Proof.PreLeft.lean ====
/-
  What the precondition says about the table `left`: every entry, read signed, lies in 0 … 1023.
-/
import proofs.«428286_j56160992363152_3_alg».proof.Pre_finite_inputs
import Idealize.ShloMosaic.Lib.ValueIdx
import Idealize.ShloMosaic.Lib.ReduceAll
import Idealize.ShloMosaic.Lib.StableHlo.Predicate

noncomputable section

namespace Cert.PreLeft

open Idealize.ShloMosaic Idealize.ShloMosaic.ValueIdx
open Cert.Pre_finite_inputs

variable {F : FTy → Type} [FloatOps F] [Cert.Pre_finite_inputs.Facts]

/-- The result shape of the predicate has a single index. -/
instance : Subsingleton S_.Idx := ⟨fun a b => funext fun d => d.elim0⟩

/-- From the printed predicate being all ones: each entry of its fifth argument is a position of the axis. -/
theorem left_in_range (a0 : FVec F S2x32768x1024 .f32) (a1 a2 : FVec F S2x1024 .f32) (a3 a4 a5 : IVec S1024 32)
    (h : Cert.Pre_finite_inputs.fn (F := F) a0 a1 a2 a3 a4 a5 = fun _ => 1#1) (k : Fin 1024) :
    0 ≤ (a4 (ix1 k)).toInt ∧ (a4 (ix1 k)).toInt < 1024 := by
  -- the predicate at its one index: a conjunction whose last conjunct is the `all` over the table
  have h0 := congrFun h ix0
  dsimp only [fn, fn_part1] at h0
  obtain ⟨-, h19⟩ := IntOp.andi_eq_one.1 h0
  -- an `all` that is 1 had a 1 at every entry; the entry at k is the conjunction of the two comparisons
  have h18 := Host.reduce_andi_all _ _ _ _ _ h19 (ix1 k)
  obtain ⟨h15, h17⟩ := IntOp.andi_eq_one.1 h18
  have hge := IntOp.cmpi_sge.1 h15
  have hlt := IntOp.cmpi_slt.1 h17
  -- a broadcast scalar constant reads as that constant at every entry
  change (0#32 : BitVec 32).toInt ≤ _ at hge
  change _ < (1024#32 : BitVec 32).toInt at hlt
  have e0 : (0#32 : BitVec 32).toInt = 0 := by decide
  have e1 : (1024#32 : BitVec 32).toInt = 1024 := by decide
  rw [e0] at hge
  rw [e1] at hlt
  exact ⟨hge, hlt⟩

end Cert.PreLeft

end
-- ==== Proof.lean ====
/-
  A complex signal x : [2, 32768, 1024] (real plane, imaginary plane) is permuted along its last axis by `left`, multiplied
  entrywise by the complex vector diag, added to the same product with off taken at the pairwise-permuted position, and
  permuted again by `right`. The reference does this with three gathers. The kernel folds the three permutations into two
  composed position tables and realises each as a 0/1 selection matrix on the matrix unit: a row of the signal against a
  column with a single 1 is the row's entry at the selected position, provided the table entry IS a position of the
  axis — which is what the precondition adds to finiteness for the table `left` (the one table whose VALUES, not only
  its positions, the kernel uses; the other two tables are read by the same clamped gathers on both sides).

  The pieces: the two programs' frames (the kernel's launch run once, generic in the float instance, for both the
  word-level program and its idealization; the reference's generated run); the reference's result read operation by
  operation as the specified array; the kernel's result array read block by block off its launch run as the same array;
  and `preserves`, which is trivial (the idealization rewrote nothing).
-/
import proofs.«428286_j56160992363152_3_alg».proof.Defs
import proofs.«428286_j56160992363152_3_alg».proof.Proof.Gen.Kernel
import proofs.«428286_j56160992363152_3_alg».proof.Proof.Gen.KernelIdeal
import proofs.«428286_j56160992363152_3_alg».proof.Proof.Gen.ReferenceIdeal
import proofs.«428286_j56160992363152_3_alg».proof.Proof.Gen.Pre_finite_inputs
import proofs.«428286_j56160992363152_3_alg».proof.Proof.Gen.ReferenceIdeal.Run
import proofs.«428286_j56160992363152_3_alg».proof.Proof.FrameBits
import proofs.«428286_j56160992363152_3_alg».proof.Proof.FrameIdeal
import proofs.«428286_j56160992363152_3_alg».proof.Proof.KValue
import proofs.«428286_j56160992363152_3_alg».proof.Proof.RefValue
import proofs.«428286_j56160992363152_3_alg».proof.Proof.PreLeft
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The precondition makes every entry of `left` a position of the axis. -/
theorem left_ok (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.KValue.LeftOk m c :=
  fun k => Cert.PreLeft.left_in_range (F := Ideal) _ _ _ _ _ _ (h c) k

/-- Both programs end with the specified array of the (agreeing) arguments. -/
theorem algebraic : Cert.algebraic_KernelIdeal_ReferenceIdeal := by
  intro m ρ m' ρ' hpre hagree
  refine ⟨fun c => Cert.KernelIdeal.KValue.Gm m c, Cert.KernelIdeal.KValue.run m ρ (left_ok m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq_G]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
